-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S3x32 : Shape := ⟨2, ![3, 32]⟩
abbrev S32 : Shape := ⟨1, ![32]⟩
abbrev S32x32 : Shape := ⟨2, ![32, 32]⟩
abbrev S288x128 : Shape := ⟨2, ![288, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x128 .f32) (main_arg14 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_v48 main_v49 main_v50

def fn_part1 {F : FTy → Type} [FloatOps F] (main_arg5 : FVec F S32x32 .f32) (main_arg6 : FVec F S32 .f32) (main_arg7 : FVec F S288x128 .f32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S288x128 .f32 := Host.absf main_arg7
  let main_cst_10 : FVec F S_ .f32 := constant S_ .f32 0x7F800000#32
  let main_v30 : FVec F S288x128 .f32 := broadcastInDim S288x128 ![] bcast_S_S288x128 main_cst_10
  let main_v31 : IVec S288x128 1 := cmpf .olt main_v29 main_v30
  let main_c_11 : IVec S_ 1 := constantI S_ 1 1#1
  let main_v32 : IVec S_ 1 := (fun x v => Host.reduce IntOp.andi x v reducesTo_S288x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : FVec F S50000x3 .f32) (main_arg2 : IVec S2x800000 32) (main_arg3 : FVec F S3x32 .f32) (main_arg4 : FVec F S32 .f32) (main_arg5 : FVec F S32x32 .f32) (main_arg6 : FVec F S32 .f32) (main_arg7 : FVec F S288x128 .f32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S3x32 .f32 := Host.absf main_arg3
  let main_cst_2 : FVec F S_ .f32 := constant S_ .f32 0x7F800000#32
  let main_v10 : FVec F S3x32 .f32 := broadcastInDim S3x32 ![] bcast_S_S3x32 main_cst_2
  let main_v11 : IVec S3x32 1 := cmpf .olt main_v9 main_v10
  let main_c_3 : IVec S_ 1 := constantI S_ 1 1#1
  let main_v12 : IVec S_ 1 := (fun x v => Host.reduce IntOp.andi x v reducesTo_S3x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S3x32 : Shape := ⟨2, ![3, 32]⟩
abbrev S32 : Shape := ⟨1, ![32]⟩
abbrev S32x32 : Shape := ⟨2, ![32, 32]⟩
abbrev S288x128 : Shape := ⟨2, ![288, 128]⟩
abbrev S128 : Shape := ⟨1, ![128]⟩
abbrev S128x128 : Shape := ⟨2, ![128, 128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S32x128 : Shape := ⟨2, ![32, 128]⟩
abbrev S1x32 : Shape := ⟨2, ![1, 32]⟩
abbrev S1x128 : Shape := ⟨2, ![1, 128]⟩
abbrev S3200x128 : Shape := ⟨2, ![3200, 128]⟩
abbrev S3200x3 : Shape := ⟨2, ![3200, 3]⟩
abbrev S3200x32 : Shape := ⟨2, ![3200, 32]⟩
abbrev S5000x128 : Shape := ⟨2, ![5000, 128]⟩

abbrev nBuf : Space → Nat
  | .hbm => 73
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S3x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S288x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x3, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x3, .f32⟩
  | .hbm, ⟨55, _⟩ => ⟨S800000x3, .f32⟩
  | .hbm, ⟨56, _⟩ => ⟨S128x128, .f32⟩
  | .hbm, ⟨57, _⟩ => ⟨S128x128, .f32⟩
  | .hbm, ⟨58, _⟩ => ⟨S32x128, .f32⟩
  | .hbm, ⟨59, _⟩ => ⟨S1x32, .f32⟩
  | .hbm, ⟨60, _⟩ => ⟨S1x32, .f32⟩
  | .hbm, ⟨61, _⟩ => ⟨S1x128, .f32⟩
  | .hbm, ⟨62, _⟩ => ⟨S1x128, .f32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S128x128, .f32⟩
  | .hbm, ⟨69, _⟩ => ⟨S128x128, .f32⟩
  | .hbm, ⟨70, _⟩ => ⟨S1x128, .f32⟩
  | .hbm, ⟨71, _⟩ => ⟨S1x128, .f32⟩
  | .hbm, ⟨72, _⟩ => ⟨S50000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x3, .f32⟩
  | .local _ .vmem, ⟨5, _⟩ => ⟨S3200x3, .f32⟩
  | .local _ .vmem, ⟨6, _⟩ => ⟨S3x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S128x128, .f32⟩
  | .local _ .vmem, ⟨11, _⟩ => ⟨S128x128, .f32⟩
  | .local _ .vmem, ⟨12, _⟩ => ⟨S32x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S3200x128, .f32⟩
  | .local _ .vmem, ⟨17, _⟩ => ⟨S3200x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S3200x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S288x128_S128x128_0_0 : S288x128.Slices ![0, 0] S128x128
  slices_S288x128_S128x128_128_0 : S288x128.Slices ![128, 0] S128x128
  slices_S288x128_S32x128_256_0 : S288x128.Slices ![256, 0] S32x128
  shapeCasts_S32_S1x32 : S32.ShapeCasts S1x32
  shapeCasts_S128_S1x128 : S128.ShapeCasts S1x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  bitsLt_bf16_f32 : FTy.bits .bf16 < FTy.bits .f32
  inb_S3200x3_S3200x3_0_0 : ∀ a, (![0, 0] : Fin 2 → Nat) a + S3200x3.size a ≤ S3200x3.size a
  h_S3200x3 : 0 < S3200x3.numel
  shapeCasts_S3200x3_S3200x3 : S3200x3.ShapeCasts S3200x3
  inb_S3x32_S3x32_0_0 : ∀ a, (![0, 0] : Fin 2 → Nat) a + S3x32.size a ≤ S3x32.size a
  h_S3x32 : 0 < S3x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x32_S32x32_0_0 : ∀ a, (![0, 0] : Fin 2 → Nat) a + S32x32.size a ≤ S32x32.size a
  h_S32x32 : 0 < S32x32.numel
  broadcasts_S1x32_S3200x32 : S1x32.Broadcasts S3200x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S3200x3_S3x32_S3200x32_1_0_0_1_n_n_wf : DotDims.WF S3200x3 S3x32 S3200x32 [1] [0] [0] [1] [] []
  dot_S3200x32_S32x32_S3200x32_1_0_0_1_n_n_wf : DotDims.WF S3200x32 S32x32 S3200x32 [1] [0] [0] [1] [] []
  dot_S3200x128_S128x128_S3200x128_1_0_0_1_n_n_wf : DotDims.WF S3200x128 S128x128 S3200x128 [1] [0] [0] [1] [] []
  dot_S3200x32_S32x128_S3200x128_1_0_0_1_n_n_wf : DotDims.WF S3200x32 S32x128 S3200x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .f32 = 32 ∨ (Rect.block (s := S800000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x3.size a ≤ S800000x3.size a
  hwx0_2 : ∀ i : grid0.Coords, EltTy.bits .f32 = 32 ∨ (Rect.block (s := S800000x3) S3200x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x32.size a ≤ S3x32.size a
  hwx0_3 : ∀ i : grid0.Coords, EltTy.bits .f32 = 32 ∨ (Rect.block (s := S3x32) S3x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S32x128.size a
  hwx0_9 : ∀ i : grid0.Coords, EltTy.bits .f32 = 32 ∨ (Rect.block (s := S32x128) S32x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S3200x128.size a ≤ S800000x128.size a
  hwx0_13 : ∀ i : grid0.Coords, EltTy.bits .f32 = 32 ∨ (Rect.block (s := S800000x128) S3200x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S3200x3_S3x32_S3200x32_1_0_0_1_n_n : DotDims S3200x3 S3x32 S3200x32 where
  lhsContracting := [1]
  rhsContracting := [0]
  lhsNonContracting := [0]
  rhsNonContracting := [1]
  lhsBatch := []
  rhsBatch := []
  wf := dot_S3200x3_S3x32_S3200x32_1_0_0_1_n_n_wf
def dot_S3200x32_S32x32_S3200x32_1_0_0_1_n_n : DotDims S3200x32 S32x32 S3200x32 where
  lhsContracting := [1]
  rhsContracting := [0]
  lhsNonContracting := [0]
  rhsNonContracting := [1]
  lhsBatch := []
  rhsBatch := []
  wf := dot_S3200x32_S32x32_S3200x32_1_0_0_1_n_n_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x32_S32x128_S3200x128_1_0_0_1_n_n : DotDims S3200x32 S32x128 S3200x128 where
  lhsContracting := [1]
  rhsContracting := [0]
  lhsNonContracting := [0]
  rhsNonContracting := [1]
  lhsBatch := []
  rhsBatch := []
  wf := dot_S3200x32_S32x128_S3200x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S3200x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S32x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v39) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v40) S3200x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S3x32 : Shape := ⟨2, ![3, 32]⟩
abbrev S32 : Shape := ⟨1, ![32]⟩
abbrev S32x32 : Shape := ⟨2, ![32, 32]⟩
abbrev S288x128 : Shape := ⟨2, ![288, 128]⟩
abbrev S128 : Shape := ⟨1, ![128]⟩
abbrev S128x128 : Shape := ⟨2, ![128, 128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x32 : Shape := ⟨2, ![800000, 32]⟩
abbrev S1x32 : Shape := ⟨2, ![1, 32]⟩
abbrev S800000x128 : Shape := ⟨2, ![800000, 128]⟩
abbrev S800000x288 : Shape := ⟨2, ![800000, 288]⟩
abbrev S1x128 : Shape := ⟨2, ![1, 128]⟩
abbrev S50000x256 : Shape := ⟨2, ![50000, 256]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S3x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S288x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x3, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x3, .f32⟩
  | .hbm, ⟨37, _⟩ => ⟨S800000x3, .f32⟩
  | .hbm, ⟨38, _⟩ => ⟨S800000x32, .f32⟩
  | .hbm, ⟨39, _⟩ => ⟨S1x32, .f32⟩
  | .hbm, ⟨40, _⟩ => ⟨S800000x32, .f32⟩
  | .hbm, ⟨41, _⟩ => ⟨S800000x32, .f32⟩
  | .hbm, ⟨42, _⟩ => ⟨S_, .f32⟩
  | .hbm, ⟨43, _⟩ => ⟨S800000x32, .f32⟩
  | .hbm, ⟨44, _⟩ => ⟨S800000x32, .f32⟩
  | .hbm, ⟨45, _⟩ => ⟨S800000x32, .f32⟩
  | .hbm, ⟨46, _⟩ => ⟨S1x32, .f32⟩
  | .hbm, ⟨47, _⟩ => ⟨S800000x32, .f32⟩
  | .hbm, ⟨48, _⟩ => ⟨S800000x32, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S800000x288, .f32⟩
  | .hbm, ⟨68, _⟩ => ⟨S800000x128, .f32⟩
  | .hbm, ⟨69, _⟩ => ⟨S1x128, .f32⟩
  | .hbm, ⟨70, _⟩ => ⟨S800000x128, .f32⟩
  | .hbm, ⟨71, _⟩ => ⟨S800000x128, .f32⟩
  | .hbm, ⟨72, _⟩ => ⟨S_, .f32⟩
  | .hbm, ⟨73, _⟩ => ⟨S800000x128, .f32⟩
  | .hbm, ⟨74, _⟩ => ⟨S800000x128, .f32⟩
  | .hbm, ⟨75, _⟩ => ⟨S800000x128, .f32⟩
  | .hbm, ⟨76, _⟩ => ⟨S1x128, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x256, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_3 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_5 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call2_cst : Ref sig .tc := ⟨.hbm, 88, rfl⟩
abbrev main_call2_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  concatenates_S800000x128_S800000x128_S800000x32_S800000x288_d1 : Shape.Concatenates [S800000x128, S800000x128, S800000x32] S800000x288 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S800000x1_S800000x3_1_0_n_n_0_1_13_wf : GatherDims.WF S50000x3 S800000x1 S800000x3 [1] [0] [] [0] [] 1 ![1, 3]
  dot_S800000x3_S3x32_S800000x32_1_0_0_1_n_n_wf : DotDims.WF S800000x3 S3x32 S800000x32 [1] [0] [0] [1] [] []
  dot_S800000x32_S32x32_S800000x32_1_0_0_1_n_n_wf : DotDims.WF S800000x32 S32x32 S800000x32 [1] [0] [0] [1] [] []
  gather_S50000x128_S800000x1_S800000x128_1_0_n_n_0_1_1128_wf : GatherDims.WF S50000x128 S800000x1 S800000x128 [1] [0] [] [0] [] 1 ![1, 128]
  dot_S800000x288_S288x128_S800000x128_1_0_0_1_n_n_wf : DotDims.WF S800000x288 S288x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S800000x3_S3x32_S800000x32_1_0_0_1_n_n : DotDims S800000x3 S3x32 S800000x32 where
  lhsContracting := [1]
  rhsContracting := [0]
  lhsNonContracting := [0]
  rhsNonContracting := [1]
  lhsBatch := []
  rhsBatch := []
  wf := dot_S800000x3_S3x32_S800000x32_1_0_0_1_n_n_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x288_S288x128_S800000x128_1_0_0_1_n_n : DotDims S800000x288 S288x128 S800000x128 where
  lhsContracting := [1]
  rhsContracting := [0]
  lhsNonContracting := [0]
  rhsNonContracting := [1]
  lhsBatch := []
  rhsBatch := []
  wf := dot_S800000x288_S288x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The arithmetic both programs perform, on the extended reals, one row at a time.

  A dense layer sends an input row `a` to `h ↦ (∑ k, a k * W k h) + b h`; a two-layer perceptron puts the
  rectifier `max · 0` between two dense layers.  The reference feeds a dense layer the CONCATENATION of two or
  three rows; the kernel instead adds the partial dot products of each row with the matching rows of the
  weight matrix.  The two agree because a finite sum over `Fin (K₁ + K₂)` is the sum over the first `K₁`
  indices plus the sum over the last `K₂` — a fact of any commutative additive monoid, so it holds on the
  extended reals with no finiteness assumption (no product is distributed, nothing is cancelled).
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

/-- A rank-2 array of extended reals with literal extents. -/
abbrev Arr2 (n0 n1 : ℕ) := (⟨2, ![n0, n1]⟩ : Shape).Idx → EReal
/-- A rank-1 array of extended reals with a literal extent. -/
abbrev Arr1 (n : ℕ) := (⟨1, ![n]⟩ : Shape).Idx → EReal

/-- Row `e` of a rank-2 array. -/
def row {n0 n1 : ℕ} (X : Arr2 n0 n1) (e : Fin n0) : Fin n1 → EReal := fun k => X (ix2 e k)
/-- A rank-2 array as a matrix. -/
def mat {n0 n1 : ℕ} (W : Arr2 n0 n1) : Fin n0 → Fin n1 → EReal := fun k h => W (ix2 k h)
/-- A rank-1 array as a vector. -/
def vec {n : ℕ} (b : Arr1 n) : Fin n → EReal := fun h => b (ix1 h)

/-- Output `h` of a dense layer: the input row against column `h` of the weights, plus the bias. -/
def dense {K H : ℕ} (a : Fin K → EReal) (W : Fin K → Fin H → EReal) (b : Fin H → EReal) (h : Fin H) : EReal :=
  (∑ k, a k * W k h) + b h

/-- The same layer fed two rows, each against its own weight block, the partial products added first. -/
def dense2 {K₁ K₂ H : ℕ} (a₁ : Fin K₁ → EReal) (a₂ : Fin K₂ → EReal) (W₁ : Fin K₁ → Fin H → EReal)
    (W₂ : Fin K₂ → Fin H → EReal) (b : Fin H → EReal) (h : Fin H) : EReal :=
  ((∑ k, a₁ k * W₁ k h) + (∑ k, a₂ k * W₂ k h)) + b h

/-- The same layer fed three rows, the partial products added left to right. -/
def dense3 {K₁ K₂ K₃ H : ℕ} (a₁ : Fin K₁ → EReal) (a₂ : Fin K₂ → EReal) (a₃ : Fin K₃ → EReal)
    (W₁ : Fin K₁ → Fin H → EReal) (W₂ : Fin K₂ → Fin H → EReal) (W₃ : Fin K₃ → Fin H → EReal)
    (b : Fin H → EReal) (h : Fin H) : EReal :=
  (((∑ k, a₁ k * W₁ k h) + (∑ k, a₂ k * W₂ k h)) + (∑ k, a₃ k * W₃ k h)) + b h

/-- A two-layer perceptron: dense, rectifier, dense. -/
def mlp {K H O : ℕ} (a : Fin K → EReal) (W₁ : Fin K → Fin H → EReal) (b₁ : Fin H → EReal)
    (W₂ : Fin H → Fin O → EReal) (b₂ : Fin O → EReal) : Fin O → EReal :=
  dense (fun h => max (dense a W₁ b₁ h) 0) W₂ b₂

/-- Two rows laid end to end. -/
def cat2 {K₁ K₂ : ℕ} (a₁ : Fin K₁ → EReal) (a₂ : Fin K₂ → EReal) : Fin (K₁ + K₂) → EReal :=
  fun k => if h : k.val < K₁ then a₁ ⟨k.val, h⟩ else a₂ ⟨k.val - K₁, by have := k.isLt; omega⟩

/-- Three rows laid end to end. -/
def cat3 {K₁ K₂ K₃ : ℕ} (a₁ : Fin K₁ → EReal) (a₂ : Fin K₂ → EReal) (a₃ : Fin K₃ → EReal) :
    Fin (K₁ + K₂ + K₃) → EReal :=
  fun k => if h : k.val < K₁ then a₁ ⟨k.val, h⟩
    else if h' : k.val < K₁ + K₂ then a₂ ⟨k.val - K₁, by omega⟩
    else a₃ ⟨k.val - (K₁ + K₂), by have := k.isLt; omega⟩

/-- A sum over `Fin (K₁ + K₂)` is the sum over the head plus the sum over the tail. -/
theorem sum_split2 {M : Type*} [AddCommMonoid M] {K₁ K₂ : ℕ} (f : Fin (K₁ + K₂) → M) :
    ∑ k, f k = (∑ k : Fin K₁, f ⟨k.val, by have := k.isLt; omega⟩)
      + ∑ k : Fin K₂, f ⟨K₁ + k.val, by have := k.isLt; omega⟩ := by
  rw [Fin.sum_univ_add]
  rfl

/-- A sum over `Fin (K₁ + K₂ + K₃)` in three consecutive stretches. -/
theorem sum_split3 {M : Type*} [AddCommMonoid M] {K₁ K₂ K₃ : ℕ} (f : Fin (K₁ + K₂ + K₃) → M) :
    ∑ k, f k = ((∑ k : Fin K₁, f ⟨k.val, by have := k.isLt; omega⟩)
      + ∑ k : Fin K₂, f ⟨K₁ + k.val, by have := k.isLt; omega⟩)
      + ∑ k : Fin K₃, f ⟨K₁ + K₂ + k.val, by have := k.isLt; omega⟩ := by
  rw [sum_split2 (K₁ := K₁ + K₂) (K₂ := K₃) f, sum_split2 (K₁ := K₁) (K₂ := K₂)]

/-- A dense layer on two concatenated rows is the sum of the two partial layers: the weight matrix's first
    `K₁` rows meet the first row, its last `K₂` rows the second. -/
theorem dense_cat2 {K₁ K₂ H : ℕ} (a₁ : Fin K₁ → EReal) (a₂ : Fin K₂ → EReal) (W : Fin (K₁ + K₂) → Fin H → EReal)
    (b : Fin H → EReal) (h : Fin H) :
    dense (cat2 a₁ a₂) W b h
      = dense2 a₁ a₂ (fun k => W ⟨k.val, by have := k.isLt; omega⟩) (fun k => W ⟨K₁ + k.val, by have := k.isLt; omega⟩) b h := by
  unfold dense dense2
  rw [sum_split2]
  congr 2
  · refine Finset.sum_congr rfl fun k _ => ?_
    simp only [cat2, k.isLt, dite_true]
  · refine Finset.sum_congr rfl fun k _ => ?_
    have hk : ¬ (K₁ + k.val < K₁) := by omega
    simp only [cat2, hk, dite_false, Nat.add_sub_cancel_left]

/-- A dense layer on three concatenated rows is the sum of the three partial layers. -/
theorem dense_cat3 {K₁ K₂ K₃ H : ℕ} (a₁ : Fin K₁ → EReal) (a₂ : Fin K₂ → EReal) (a₃ : Fin K₃ → EReal)
    (W : Fin (K₁ + K₂ + K₃) → Fin H → EReal) (b : Fin H → EReal) (h : Fin H) :
    dense (cat3 a₁ a₂ a₃) W b h
      = dense3 a₁ a₂ a₃ (fun k => W ⟨k.val, by have := k.isLt; omega⟩)
          (fun k => W ⟨K₁ + k.val, by have := k.isLt; omega⟩)
          (fun k => W ⟨K₁ + K₂ + k.val, by have := k.isLt; omega⟩) b h := by
  unfold dense dense3
  rw [sum_split3]
  congr 2
  · congr 1
    · refine Finset.sum_congr rfl fun k _ => ?_
      simp only [cat3, k.isLt, dite_true]
    · refine Finset.sum_congr rfl fun k _ => ?_
      have hk : ¬ (K₁ + k.val < K₁) := by omega
      have hk' : K₁ + k.val < K₁ + K₂ := by have := k.isLt; omega
      simp only [cat3, hk, hk', dite_false, dite_true, Nat.add_sub_cancel_left]
  · refine Finset.sum_congr rfl fun k _ => ?_
    have hk : ¬ (K₁ + K₂ + k.val < K₁) := by omega
    have hk' : ¬ (K₁ + K₂ + k.val < K₁ + K₂) := by omega
    simp only [cat3, hk, hk', dite_false, Nat.add_sub_cancel_left]

/-! ## The two programs' layers as whole-array functions -/

/-- The per-edge messages as the kernel computes them: for edge `e` and feature `o`, the message perceptron on the
    source row, the destination row and the position features, its first layer as three partial products. The
    biases arrive as one-row matrices. -/
def MsgK (XR XC : Arr2 800000 128) (PD : Arr2 800000 3) (pw1 : Arr2 3 32) (pb1 : Arr2 1 32) (pw2 : Arr2 32 32)
    (pb2 : Arr2 1 32) (wr wc : Arr2 128 128) (wp : Arr2 32 128) (mb1 : Arr2 1 128) (mw2 : Arr2 128 128)
    (mb2 : Arr2 1 128) : Arr2 800000 128 :=
  fun i => dense (fun h => max (dense3 (row XR (i 0)) (row XC (i 0))
      (mlp (row PD (i 0)) (mat pw1) (row pb1 0) (mat pw2) (row pb2 0))
      (mat wr) (mat wc) (mat wp) (row mb1 0) h) 0) (mat mw2) (row mb2 0) (i 1)

/-- The per-node update as the kernel computes it: the update perceptron on the node's row and its aggregated
    messages, the first layer as two partial products. -/
def UpdK (X AGG : Arr2 50000 128) (ux ua : Arr2 128 128) (ub1 : Arr2 1 128) (uw2 : Arr2 128 128)
    (ub2 : Arr2 1 128) : Arr2 50000 128 :=
  fun i => dense (fun h => max (dense2 (row X (i 0)) (row AGG (i 0)) (mat ux) (mat ua) (row ub1 0) h) 0)
    (mat uw2) (row ub2 0) (i 1)

/-- The per-edge messages as the reference computes them: the message perceptron on the concatenated row. -/
def MsgR (XR XC : Arr2 800000 128) (PD : Arr2 800000 3) (pw1 : Arr2 3 32) (pb1 : Arr1 32) (pw2 : Arr2 32 32)
    (pb2 : Arr1 32) (mw1 : Arr2 288 128) (mb1 : Arr1 128) (mw2 : Arr2 128 128) (mb2 : Arr1 128) :
    Arr2 800000 128 :=
  fun i => mlp (K := 288) (cat3 (row XR (i 0)) (row XC (i 0)) (mlp (row PD (i 0)) (mat pw1) (vec pb1) (mat pw2) (vec pb2)))
    (mat mw1) (vec mb1) (mat mw2) (vec mb2) (i 1)

/-- The per-node update as the reference computes it: the update perceptron on the concatenated row. -/
def UpdR (X AGG : Arr2 50000 128) (uw1 : Arr2 256 128) (ub1 : Arr1 128) (uw2 : Arr2 128 128) (ub2 : Arr1 128) :
    Arr2 50000 128 :=
  fun i => mlp (K := 256) (cat2 (row X (i 0)) (row AGG (i 0))) (mat uw1) (vec ub1) (mat uw2) (vec ub2) (i 1)

/-- The kernel's messages are the reference's, once the kernel's three weight blocks are the three row stretches
    of the reference's first-layer matrix and its one-row biases are the reference's bias vectors. -/
theorem MsgK_eq_MsgR (XR XC : Arr2 800000 128) (PD : Arr2 800000 3) (pw1 : Arr2 3 32) (pb1r : Arr2 1 32) (pb1 : Arr1 32)
    (pw2 : Arr2 32 32) (pb2r : Arr2 1 32) (pb2 : Arr1 32) (wr wc : Arr2 128 128) (wp : Arr2 32 128) (mw1 : Arr2 288 128)
    (mb1r : Arr2 1 128) (mb1 : Arr1 128) (mw2 : Arr2 128 128) (mb2r : Arr2 1 128) (mb2 : Arr1 128)
    (hpb1 : ∀ h, pb1r (ix2 0 h) = pb1 (ix1 h)) (hpb2 : ∀ h, pb2r (ix2 0 h) = pb2 (ix1 h))
    (hmb1 : ∀ h, mb1r (ix2 0 h) = mb1 (ix1 h)) (hmb2 : ∀ h, mb2r (ix2 0 h) = mb2 (ix1 h))
    (hwr : ∀ (k : Fin 128) (h : Fin 128), wr (ix2 k h) = mw1 (ix2 ⟨k.val, by have := k.isLt; omega⟩ h))
    (hwc : ∀ (k : Fin 128) (h : Fin 128), wc (ix2 k h) = mw1 (ix2 ⟨128 + k.val, by have := k.isLt; omega⟩ h))
    (hwp : ∀ (k : Fin 32) (h : Fin 128), wp (ix2 k h) = mw1 (ix2 ⟨128 + 128 + k.val, by have := k.isLt; omega⟩ h)) :
    MsgK XR XC PD pw1 pb1r pw2 pb2r wr wc wp mb1r mw2 mb2r = MsgR XR XC PD pw1 pb1 pw2 pb2 mw1 mb1 mw2 mb2 := by
  funext i
  have e1 : row pb1r 0 = vec pb1 := funext hpb1
  have e2 : row pb2r 0 = vec pb2 := funext hpb2
  have e3 : row mb1r 0 = vec mb1 := funext hmb1
  have e4 : row mb2r 0 = vec mb2 := funext hmb2
  have e5 : mat wr = fun k => mat mw1 ⟨k.val, by have := k.isLt; omega⟩ := funext fun k => funext fun h => hwr k h
  have e6 : mat wc = fun k => mat mw1 ⟨128 + k.val, by have := k.isLt; omega⟩ := funext fun k => funext fun h => hwc k h
  have e7 : mat wp = fun k => mat mw1 ⟨128 + 128 + k.val, by have := k.isLt; omega⟩ := funext fun k => funext fun h => hwp k h
  unfold MsgK MsgR
  rw [e1, e2, e3, e4, e5, e6, e7]
  unfold mlp
  refine congrArg (fun f => dense f (mat mw2) (vec mb2) (i 1)) (funext fun h => ?_)
  exact congrArg (max · 0) (dense_cat3 (K₁ := 128) (K₂ := 128) (K₃ := 32) _ _ _ (mat mw1) (vec mb1) h).symm

/-- The kernel's update is the reference's, under the same reading of the weight blocks and biases. -/
theorem UpdK_eq_UpdR (X AGG : Arr2 50000 128) (ux ua : Arr2 128 128) (uw1 : Arr2 256 128) (ub1r : Arr2 1 128) (ub1 : Arr1 128)
    (uw2 : Arr2 128 128) (ub2r : Arr2 1 128) (ub2 : Arr1 128)
    (hub1 : ∀ h, ub1r (ix2 0 h) = ub1 (ix1 h)) (hub2 : ∀ h, ub2r (ix2 0 h) = ub2 (ix1 h))
    (hux : ∀ (k : Fin 128) (h : Fin 128), ux (ix2 k h) = uw1 (ix2 ⟨k.val, by have := k.isLt; omega⟩ h))
    (hua : ∀ (k : Fin 128) (h : Fin 128), ua (ix2 k h) = uw1 (ix2 ⟨128 + k.val, by have := k.isLt; omega⟩ h)) :
    UpdK X AGG ux ua ub1r uw2 ub2r = UpdR X AGG uw1 ub1 uw2 ub2 := by
  funext i
  have e3 : row ub1r 0 = vec ub1 := funext hub1
  have e4 : row ub2r 0 = vec ub2 := funext hub2
  have e5 : mat ux = fun k => mat uw1 ⟨k.val, by have := k.isLt; omega⟩ := funext fun k => funext fun h => hux k h
  have e6 : mat ua = fun k => mat uw1 ⟨128 + k.val, by have := k.isLt; omega⟩ := funext fun k => funext fun h => hua k h
  unfold UpdK UpdR
  rw [e3, e4, e5, e6]
  unfold mlp
  refine congrArg (fun f => dense f (mat uw2) (vec ub2) (i 1)) (funext fun h => ?_)
  exact congrArg (max · 0) (dense_cat2 (K₁ := 128) (K₂ := 128) _ _ (mat uw1) (vec ub1) h).symm

end Cert.Spec

end
-- ==== Proof.HostFnsK.lean ====
/-
  The host-side steps both programs share, as named functions of the argument arrays (the kernel's program).
  The edge list `ei` has the source nodes in row 0 and the destination nodes in row 1.  An index that is
  negative is moved up by the node count (python's wrap-around) before a gather; the scatter-add uses the
  destination indices as they are.
-/
import proofs.«162276_j49495203119136_1_alg».proof.Proof.Gen.KernelIdeal
import Idealize.ShloMosaic.PureOps.Ideal

noncomputable section

namespace Cert.KernelIdeal.HostFns

open Cert.KernelIdeal Cert.KernelIdeal.Facts₀ Idealize.ShloMosaic Idealize.ShloMosaic.TcCoe

/-- Row 0 of the edge list: the source node of every edge. -/
def rowIx (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- Row 1 of the edge list: the destination node of every edge. -/
def colIx (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- A negative index moved up by the node count. -/
def wrap (ix : (⟨S800000, .i32⟩ : BufTy).Contents (Elt Ideal)) : (⟨S800000, .i32⟩ : BufTy).Contents (Elt Ideal) :=
  select (cmpi .slt ix (broadcastInDim S800000 ![] bcast_S_S800000 (constantI S_ 32 0#32)))
    (addi ix (broadcastInDim S800000 ![] bcast_S_S800000 (constantI S_ 32 50000#32))) ix

/-- The index vector as a one-column matrix, the form gather and scatter take. -/
def asCol (ix : (⟨S800000, .i32⟩ : BufTy).Contents (Elt Ideal)) : (⟨S800000x1, .i32⟩ : BufTy).Contents (Elt Ideal) :=
  broadcastInDim S800000x1 ![0] bcast_S800000_S800000x1_0 ix

/-- The feature rows of the nodes an index vector names. -/
def gatherX (x : (⟨S50000x128, .f32⟩ : BufTy).Contents (Elt Ideal)) (ix : (⟨S800000, .i32⟩ : BufTy).Contents (Elt Ideal)) :
    (⟨S800000x128, .f32⟩ : BufTy).Contents (Elt Ideal) :=
  Host.gather gather_S50000x128_S800000x1_S800000x128_1_0_n_n_0_1_1128 x (asCol (wrap ix))

/-- The position rows of the nodes an index vector names. -/
def gatherP (p : (⟨S50000x3, .f32⟩ : BufTy).Contents (Elt Ideal)) (ix : (⟨S800000, .i32⟩ : BufTy).Contents (Elt Ideal)) :
    (⟨S800000x3, .f32⟩ : BufTy).Contents (Elt Ideal) :=
  Host.gather gather_S50000x3_S800000x1_S800000x3_1_0_n_n_0_1_13 p (asCol (wrap ix))

/-- Source position minus destination position, per edge. -/
def posDiff (p : (⟨S50000x3, .f32⟩ : BufTy).Contents (Elt Ideal)) (ei : (⟨S2x800000, .i32⟩ : BufTy).Contents (Elt Ideal)) :
    (⟨S800000x3, .f32⟩ : BufTy).Contents (Elt Ideal) :=
  subf (F := Ideal) (s := S800000x3) (φ := .f32) (gatherP p (rowIx ei)) (gatherP p (colIx ei))

/-- The messages summed into their destination nodes, from an all-zero array. -/
def agg (ei : (⟨S2x800000, .i32⟩ : BufTy).Contents (Elt Ideal)) (msgs : (⟨S800000x128, .f32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32)) (asCol (colIx ei)) msgs

end Cert.KernelIdeal.HostFns

end
-- ==== Proof.LibLayoutRead.lean ====
/-
  Two layout operations read at an index, for rank-2 arrays of literal extents: a rank-1 array reshaped to a
  one-row matrix, and a block of consecutive rows cut out of a matrix.
-/
import Idealize.ShloMosaic.Lib.Pipeline.Value
import Idealize.ShloMosaic.Lib.ValueIdx

noncomputable section

namespace Cert.LibLayoutRead

open Idealize.ShloMosaic Idealize.ShloMosaic.ValueIdx

variable {α : Type}

/-- A vector of length `n` reshaped to a `1 × n` matrix holds, in its only row, the vector's entries in order. -/
theorem shapeCast_row_apply {n : ℕ} (b : (⟨1, ![n]⟩ : Shape).Idx → α)
    (hc : (⟨1, ![n]⟩ : Shape).ShapeCasts ⟨2, ![1, n]⟩) (h : Fin n) :
    shapeCast (⟨2, ![1, n]⟩ : Shape) b hc (ix2 0 h) = b (ix1 h) := by
  refine (shapeCast_addUnit_apply ![n] b hc (ix2 0 h)).trans (congrArg b ?_)
  funext a
  match a with
  | ⟨0, _⟩ => rfl

/-- Rows `off … off + r - 1` of an `R × C` matrix, all columns kept: entry `(k, h)` of the slice is entry
    `(off + k, h)` of the matrix. -/
theorem rowSlice_apply {R C r : ℕ} (off : ℕ) (W : (⟨2, ![R, C]⟩ : Shape).Idx → α)
    (hs : (⟨2, ![R, C]⟩ : Shape).Slices ![off, 0] ⟨2, ![r, C]⟩) (k : Fin r) (h : Fin C) (hk : off + k.val < R) :
    extractStridedSlice (⟨2, ![r, C]⟩ : Shape) ![off, 0] W hs (ix2 k h) = W (ix2 ⟨off + k.val, hk⟩ h) := by
  refine extractStridedSlice_apply _ W hs (ix2 k h) (ix2 ⟨off + k.val, hk⟩ h) fun a => ?_
  match a with
  | ⟨0, _⟩ => rfl
  | ⟨1, _⟩ => exact (Nat.zero_add _).symm

end Cert.LibLayoutRead

end
-- ==== Proof.Region0.lean ====
/-
  Region 0: the message array.  At every grid point the kernel body stores one block of 3200 rows; entry (p, q) of
  that block is the message perceptron applied to row p of the source block, of the destination block and of the
  position block: four matrix products into zero accumulators, each a finite sum over the contracted axis, the
  one-row biases laid over every row, and the rectifier as a maximum with 0.  Point t writes rows 3200 t to
  3200 t + 3199, the input row blocks move with it and the weights stay whole, so the blocks are the restrictions
  of one whole-array function, and the 250 blocks tile the 800000 rows: row r lies in the block of point r / 3200.
-/
import proofs.«162276_j49495203119136_1_alg».proof.Proof.Gen.KernelIdeal.Frame
import proofs.«162276_j49495203119136_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Reg0

open Cert.KernelIdeal Cert.KernelIdeal.Gen Idealize.ShloMosaic Idealize.ShloMosaic.TcCoe
open Idealize.SL.Sem Idealize.ShloMosaic.ValueIdx Cert.Spec

/-! ### The [3200,3] × [3,32] product -/

theorem lhs_3x32_0 (i : S3200x32.Idx) (q : dot_S3200x3_S3x32_S3200x32_1_0_0_1_n_n.contr.Idx) :
    (dot_S3200x3_S3x32_S3200x32_1_0_0_1_n_n.lhsIdx i q 0).val = (i 0).val := by
  unfold DotDims.lhsIdx
  rw [dif_neg (show ¬(0 : Fin S3200x3.rank) ∈ dot_S3200x3_S3x32_S3200x32_1_0_0_1_n_n.lhsBatch by decide), dif_pos (show (0 : Fin S3200x3.rank) ∈ dot_S3200x3_S3x32_S3200x32_1_0_0_1_n_n.lhsNonContracting by decide)]
  rfl
theorem lhs_3x32_1 (i : S3200x32.Idx) (q : dot_S3200x3_S3x32_S3200x32_1_0_0_1_n_n.contr.Idx) :
    (dot_S3200x3_S3x32_S3200x32_1_0_0_1_n_n.lhsIdx i q 1).val = (q ⟨0, by decide⟩).val :=
  dot_S3200x3_S3x32_S3200x32_1_0_0_1_n_n.lhsIdx_val_of_single rfl i q
theorem rhs_3x32_0 (i : S3200x32.Idx) (q : dot_S3200x3_S3x32_S3200x32_1_0_0_1_n_n.contr.Idx) :
    (dot_S3200x3_S3x32_S3200x32_1_0_0_1_n_n.rhsIdx i q 0).val = (q ⟨0, by decide⟩).val :=
  dot_S3200x3_S3x32_S3200x32_1_0_0_1_n_n.rhsIdx_val_of_single rfl i q
theorem rhs_3x32_1 (i : S3200x32.Idx) (q : dot_S3200x3_S3x32_S3200x32_1_0_0_1_n_n.contr.Idx) :
    (dot_S3200x3_S3x32_S3200x32_1_0_0_1_n_n.rhsIdx i q 1).val = (i 1).val := by
  unfold DotDims.rhsIdx
  rw [dif_neg (show ¬(1 : Fin S3x32.rank) ∈ dot_S3200x3_S3x32_S3200x32_1_0_0_1_n_n.rhsBatch by decide), dif_pos (show (1 : Fin S3x32.rank) ∈ dot_S3200x3_S3x32_S3200x32_1_0_0_1_n_n.rhsNonContracting by decide)]
  rfl

/-- Entry (p, q) of the product into a zero accumulator is row p of the left factor against column q of the right. -/
theorem mm_3x32 (l : FVec Ideal S3200x3 .bf16) (r : FVec Ideal S3x32 .bf16) (p : Fin 3200) (q : Fin 32) :
    matmul dot_S3200x3_S3x32_S3200x32_1_0_0_1_n_n none l r (constant (F := Ideal) S3200x32 .f32 0x00000000#32) (ix2 p q)
      = ∑ k : Fin 3, l (ix2 p k) * r (ix2 k q) := by
  simp only [matmul]
  rw [Ideal.matmul_constant_zero_apply, ← Equiv.sum_comp (ValueIdx.contrEquiv1 dot_S3200x3_S3x32_S3200x32_1_0_0_1_n_n 3 rfl rfl).symm]
  refine Finset.sum_congr rfl fun k _ => ?_
  have hk := ValueIdx.contrEquiv1_symm_val dot_S3200x3_S3x32_S3200x32_1_0_0_1_n_n 3 rfl rfl k
  have el : dot_S3200x3_S3x32_S3200x32_1_0_0_1_n_n.lhsIdx (ix2 p q) ((ValueIdx.contrEquiv1 dot_S3200x3_S3x32_S3200x32_1_0_0_1_n_n 3 rfl rfl).symm k) = ix2 p k := funext fun a => Fin.ext (by
    match a with
    | ⟨0, _⟩ => exact lhs_3x32_0 _ _
    | ⟨1, _⟩ => exact (lhs_3x32_1 _ _).trans hk)
  have er : dot_S3200x3_S3x32_S3200x32_1_0_0_1_n_n.rhsIdx (ix2 p q) ((ValueIdx.contrEquiv1 dot_S3200x3_S3x32_S3200x32_1_0_0_1_n_n 3 rfl rfl).symm k) = ix2 k q := funext fun a => Fin.ext (by
    match a with
    | ⟨0, _⟩ => exact (rhs_3x32_0 _ _).trans hk
    | ⟨1, _⟩ => exact rhs_3x32_1 _ _)
  rw [el, er]

/-! ### The [3200,32] × [32,32] product -/

theorem lhs_32x32_0 (i : S3200x32.Idx) (q : dot_S3200x32_S32x32_S3200x32_1_0_0_1_n_n.contr.Idx) :
    (dot_S3200x32_S32x32_S3200x32_1_0_0_1_n_n.lhsIdx i q 0).val = (i 0).val := by
  unfold DotDims.lhsIdx
  rw [dif_neg (show ¬(0 : Fin S3200x32.rank) ∈ dot_S3200x32_S32x32_S3200x32_1_0_0_1_n_n.lhsBatch by decide), dif_pos (show (0 : Fin S3200x32.rank) ∈ dot_S3200x32_S32x32_S3200x32_1_0_0_1_n_n.lhsNonContracting by decide)]
  rfl
theorem lhs_32x32_1 (i : S3200x32.Idx) (q : dot_S3200x32_S32x32_S3200x32_1_0_0_1_n_n.contr.Idx) :
    (dot_S3200x32_S32x32_S3200x32_1_0_0_1_n_n.lhsIdx i q 1).val = (q ⟨0, by decide⟩).val :=
  dot_S3200x32_S32x32_S3200x32_1_0_0_1_n_n.lhsIdx_val_of_single rfl i q
theorem rhs_32x32_0 (i : S3200x32.Idx) (q : dot_S3200x32_S32x32_S3200x32_1_0_0_1_n_n.contr.Idx) :
    (dot_S3200x32_S32x32_S3200x32_1_0_0_1_n_n.rhsIdx i q 0).val = (q ⟨0, by decide⟩).val :=
  dot_S3200x32_S32x32_S3200x32_1_0_0_1_n_n.rhsIdx_val_of_single rfl i q
theorem rhs_32x32_1 (i : S3200x32.Idx) (q : dot_S3200x32_S32x32_S3200x32_1_0_0_1_n_n.contr.Idx) :
    (dot_S3200x32_S32x32_S3200x32_1_0_0_1_n_n.rhsIdx i q 1).val = (i 1).val := by
  unfold DotDims.rhsIdx
  rw [dif_neg (show ¬(1 : Fin S32x32.rank) ∈ dot_S3200x32_S32x32_S3200x32_1_0_0_1_n_n.rhsBatch by decide), dif_pos (show (1 : Fin S32x32.rank) ∈ dot_S3200x32_S32x32_S3200x32_1_0_0_1_n_n.rhsNonContracting by decide)]
  rfl

/-- Entry (p, q) of the product into a zero accumulator is row p of the left factor against column q of the right. -/
theorem mm_32x32 (l : FVec Ideal S3200x32 .bf16) (r : FVec Ideal S32x32 .bf16) (p : Fin 3200) (q : Fin 32) :
    matmul dot_S3200x32_S32x32_S3200x32_1_0_0_1_n_n none l r (constant (F := Ideal) S3200x32 .f32 0x00000000#32) (ix2 p q)
      = ∑ k : Fin 32, l (ix2 p k) * r (ix2 k q) := by
  simp only [matmul]
  rw [Ideal.matmul_constant_zero_apply, ← Equiv.sum_comp (ValueIdx.contrEquiv1 dot_S3200x32_S32x32_S3200x32_1_0_0_1_n_n 32 rfl rfl).symm]
  refine Finset.sum_congr rfl fun k _ => ?_
  have hk := ValueIdx.contrEquiv1_symm_val dot_S3200x32_S32x32_S3200x32_1_0_0_1_n_n 32 rfl rfl k
  have el : dot_S3200x32_S32x32_S3200x32_1_0_0_1_n_n.lhsIdx (ix2 p q) ((ValueIdx.contrEquiv1 dot_S3200x32_S32x32_S3200x32_1_0_0_1_n_n 32 rfl rfl).symm k) = ix2 p k := funext fun a => Fin.ext (by
    match a with
    | ⟨0, _⟩ => exact lhs_32x32_0 _ _
    | ⟨1, _⟩ => exact (lhs_32x32_1 _ _).trans hk)
  have er : dot_S3200x32_S32x32_S3200x32_1_0_0_1_n_n.rhsIdx (ix2 p q) ((ValueIdx.contrEquiv1 dot_S3200x32_S32x32_S3200x32_1_0_0_1_n_n 32 rfl rfl).symm k) = ix2 k q := funext fun a => Fin.ext (by
    match a with
    | ⟨0, _⟩ => exact (rhs_32x32_0 _ _).trans hk
    | ⟨1, _⟩ => exact rhs_32x32_1 _ _)
  rw [el, er]

/-! ### The [3200,128] × [128,128] product -/

theorem lhs_128x128_0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl
theorem lhs_128x128_1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q
theorem rhs_128x128_0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q
theorem rhs_128x128_1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

/-- Entry (p, q) of the product into a zero accumulator is row p of the left factor against column q of the right. -/
theorem mm_128x128 (l : FVec Ideal S3200x128 .bf16) (r : FVec Ideal S128x128 .bf16) (p : Fin 3200) (q : Fin 128) :
    matmul dot_S3200x128_S128x128_S3200x128_1_0_0_1_n_n none l r (constant (F := Ideal) S3200x128 .f32 0x00000000#32) (ix2 p q)
      = ∑ k : Fin 128, l (ix2 p k) * r (ix2 k q) := by
  simp only [matmul]
  rw [Ideal.matmul_constant_zero_apply, ← Equiv.sum_comp (ValueIdx.contrEquiv1 dot_S3200x128_S128x128_S3200x128_1_0_0_1_n_n 128 rfl rfl).symm]
  refine Finset.sum_congr rfl fun k _ => ?_
  have hk := ValueIdx.contrEquiv1_symm_val dot_S3200x128_S128x128_S3200x128_1_0_0_1_n_n 128 rfl rfl k
  have el : dot_S3200x128_S128x128_S3200x128_1_0_0_1_n_n.lhsIdx (ix2 p q) ((ValueIdx.contrEquiv1 dot_S3200x128_S128x128_S3200x128_1_0_0_1_n_n 128 rfl rfl).symm k) = ix2 p k := funext fun a => Fin.ext (by
    match a with
    | ⟨0, _⟩ => exact lhs_128x128_0 _ _
    | ⟨1, _⟩ => exact (lhs_128x128_1 _ _).trans hk)
  have er : dot_S3200x128_S128x128_S3200x128_1_0_0_1_n_n.rhsIdx (ix2 p q) ((ValueIdx.contrEquiv1 dot_S3200x128_S128x128_S3200x128_1_0_0_1_n_n 128 rfl rfl).symm k) = ix2 k q := funext fun a => Fin.ext (by
    match a with
    | ⟨0, _⟩ => exact (rhs_128x128_0 _ _).trans hk
    | ⟨1, _⟩ => exact rhs_128x128_1 _ _)
  rw [el, er]

/-! ### The [3200,32] × [32,128] product -/

theorem lhs_32x128_0 (i : S3200x128.Idx) (q : dot_S3200x32_S32x128_S3200x128_1_0_0_1_n_n.contr.Idx) :
    (dot_S3200x32_S32x128_S3200x128_1_0_0_1_n_n.lhsIdx i q 0).val = (i 0).val := by
  unfold DotDims.lhsIdx
  rw [dif_neg (show ¬(0 : Fin S3200x32.rank) ∈ dot_S3200x32_S32x128_S3200x128_1_0_0_1_n_n.lhsBatch by decide), dif_pos (show (0 : Fin S3200x32.rank) ∈ dot_S3200x32_S32x128_S3200x128_1_0_0_1_n_n.lhsNonContracting by decide)]
  rfl
theorem lhs_32x128_1 (i : S3200x128.Idx) (q : dot_S3200x32_S32x128_S3200x128_1_0_0_1_n_n.contr.Idx) :
    (dot_S3200x32_S32x128_S3200x128_1_0_0_1_n_n.lhsIdx i q 1).val = (q ⟨0, by decide⟩).val :=
  dot_S3200x32_S32x128_S3200x128_1_0_0_1_n_n.lhsIdx_val_of_single rfl i q
theorem rhs_32x128_0 (i : S3200x128.Idx) (q : dot_S3200x32_S32x128_S3200x128_1_0_0_1_n_n.contr.Idx) :
    (dot_S3200x32_S32x128_S3200x128_1_0_0_1_n_n.rhsIdx i q 0).val = (q ⟨0, by decide⟩).val :=
  dot_S3200x32_S32x128_S3200x128_1_0_0_1_n_n.rhsIdx_val_of_single rfl i q
theorem rhs_32x128_1 (i : S3200x128.Idx) (q : dot_S3200x32_S32x128_S3200x128_1_0_0_1_n_n.contr.Idx) :
    (dot_S3200x32_S32x128_S3200x128_1_0_0_1_n_n.rhsIdx i q 1).val = (i 1).val := by
  unfold DotDims.rhsIdx
  rw [dif_neg (show ¬(1 : Fin S32x128.rank) ∈ dot_S3200x32_S32x128_S3200x128_1_0_0_1_n_n.rhsBatch by decide), dif_pos (show (1 : Fin S32x128.rank) ∈ dot_S3200x32_S32x128_S3200x128_1_0_0_1_n_n.rhsNonContracting by decide)]
  rfl

/-- Entry (p, q) of the product into a zero accumulator is row p of the left factor against column q of the right. -/
theorem mm_32x128 (l : FVec Ideal S3200x32 .bf16) (r : FVec Ideal S32x128 .bf16) (p : Fin 3200) (q : Fin 128) :
    matmul dot_S3200x32_S32x128_S3200x128_1_0_0_1_n_n none l r (constant (F := Ideal) S3200x128 .f32 0x00000000#32) (ix2 p q)
      = ∑ k : Fin 32, l (ix2 p k) * r (ix2 k q) := by
  simp only [matmul]
  rw [Ideal.matmul_constant_zero_apply, ← Equiv.sum_comp (ValueIdx.contrEquiv1 dot_S3200x32_S32x128_S3200x128_1_0_0_1_n_n 32 rfl rfl).symm]
  refine Finset.sum_congr rfl fun k _ => ?_
  have hk := ValueIdx.contrEquiv1_symm_val dot_S3200x32_S32x128_S3200x128_1_0_0_1_n_n 32 rfl rfl k
  have el : dot_S3200x32_S32x128_S3200x128_1_0_0_1_n_n.lhsIdx (ix2 p q) ((ValueIdx.contrEquiv1 dot_S3200x32_S32x128_S3200x128_1_0_0_1_n_n 32 rfl rfl).symm k) = ix2 p k := funext fun a => Fin.ext (by
    match a with
    | ⟨0, _⟩ => exact lhs_32x128_0 _ _
    | ⟨1, _⟩ => exact (lhs_32x128_1 _ _).trans hk)
  have er : dot_S3200x32_S32x128_S3200x128_1_0_0_1_n_n.rhsIdx (ix2 p q) ((ValueIdx.contrEquiv1 dot_S3200x32_S32x128_S3200x128_1_0_0_1_n_n 32 rfl rfl).symm k) = ix2 k q := funext fun a => Fin.ext (by
    match a with
    | ⟨0, _⟩ => exact (rhs_32x128_0 _ _).trans hk
    | ⟨1, _⟩ => exact rhs_32x128_1 _ _)
  rw [el, er]

/-! ### A one-row bias laid over every row -/

theorem bias32 (v : S1x32.Idx → EReal) (p : Fin 3200) (h : Fin 32) :
    broadcastTo S3200x32 v broadcasts_S1x32_S3200x32 (ix2 p h) = v (ix2 0 h) :=
  broadcastTo_apply v broadcasts_S1x32_S3200x32 (ix2 p h) (ix2 0 h) (fun a => match a with
    | ⟨0, _⟩ => by show 0 = if (1 : Nat) = 1 then 0 else _; rw [if_pos rfl]
    | ⟨1, _⟩ => by show h.val = if (32 : Nat) = 1 then 0 else h.val; rw [if_neg (by decide)])

theorem bias128 (v : S1x128.Idx → EReal) (p : Fin 3200) (h : Fin 128) :
    broadcastTo S3200x128 v broadcasts_S1x128_S3200x128 (ix2 p h) = v (ix2 0 h) :=
  broadcastTo_apply v broadcasts_S1x128_S3200x128 (ix2 p h) (ix2 0 h) (fun a => match a with
    | ⟨0, _⟩ => by show 0 = if (1 : Nat) = 1 then 0 else _; rw [if_pos rfl]
    | ⟨1, _⟩ => by show h.val = if (128 : Nat) = 1 then 0 else h.val; rw [if_neg (by decide)])

/-- The float word 0 is the extended real 0. -/
theorem zero_f32 : (FloatOps.ofBits (F := Ideal) .f32 0x00000000#32) = (0 : EReal) := Ideal.ofBits_zero_f32

/-! ### The payloads at an index -/

/-- The position perceptron's output block: entry (p, h) is the perceptron on row p of the position block. -/
theorem pay4_apply (x2 : Vec Ideal S3200x3 .f32) (x3 : Vec Ideal S3x32 .f32) (x4 : Vec Ideal S1x32 .f32)
    (x5 : Vec Ideal S32x32 .f32) (x6 : Vec Ideal S1x32 .f32) (p : Fin 3200) (h : Fin 32) :
    k0_pay4 (F := Ideal) x2 x3 x4 x5 x6 (ix2 p h)
      = mlp (row x2 p) (mat x3) (row x4 0) (mat x5) (row x6 0) h := by
  unfold k0_pay4
  simp only [shapeCast_self]
  rw [addf_apply, mm_32x32, bias32]
  simp only [truncf_apply, maximumf_apply, addf_apply, mm_3x32, bias32, broadcast_apply, zero_f32]
  rfl

/-- The message block: entry (p, q) is the message perceptron on row p of the three input blocks. -/
theorem pay1_apply (x0 x1 : Vec Ideal S3200x128 .f32) (x2 : Vec Ideal S3200x3 .f32) (x3 : Vec Ideal S3x32 .f32)
    (x4 : Vec Ideal S1x32 .f32) (x5 : Vec Ideal S32x32 .f32) (x6 : Vec Ideal S1x32 .f32)
    (x7 x8 : Vec Ideal S128x128 .f32) (x9 : Vec Ideal S32x128 .f32) (x10 : Vec Ideal S1x128 .f32)
    (x11 : Vec Ideal S128x128 .f32) (x12 : Vec Ideal S1x128 .f32) (p : Fin 3200) (q : Fin 128) :
    k0_pay1 (F := Ideal) (k0_pay2 x0) (k0_pay3 x1) (k0_pay4 x2 x3 x4 x5 x6) (k0_pay5 x7) (k0_pay6 x8) (k0_pay7 x9) x10 x11 x12 (ix2 p q)
      = dense (fun h => max (dense3 (row x0 p) (row x1 p) (mlp (row x2 p) (mat x3) (row x4 0) (mat x5) (row x6 0))
          (mat x7) (mat x8) (mat x9) (row x10 0) h) 0) (mat x11) (row x12 0) q := by
  unfold k0_pay1 k0_pay2 k0_pay3 k0_pay5 k0_pay6 k0_pay7
  simp only [shapeCast_self]
  rw [addf_apply, mm_128x128, bias128]
  simp only [truncf_apply, maximumf_apply, addf_apply, mm_128x128, mm_32x128, bias128, broadcast_apply, zero_f32, pay4_apply]
  rfl

/-! ### From blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the three row-blocked inputs move with the output, whose block at point t
    is block t along the rows; no block moves along the columns. -/
theorem idx_rows : ∀ t : Fin cfg0.N,
    win0_0.index t (0 : Fin 2) = win0_13.index t (0 : Fin 2) ∧ win0_0.index t (1 : Fin 2) = 0
    ∧ win0_1.index t (0 : Fin 2) = win0_13.index t (0 : Fin 2) ∧ win0_1.index t (1 : Fin 2) = 0
    ∧ win0_2.index t (0 : Fin 2) = win0_13.index t (0 : Fin 2) ∧ win0_2.index t (1 : Fin 2) = 0
    ∧ win0_13.index t (0 : Fin 2) = t.val ∧ win0_13.index t (1 : Fin 2) = 0 :=
  (by decide +kernel : ∀ t : Fin grid0.N, _)

/-- The weight and bias windows sit at block 0 at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- Window 3's block is its whole array, at every point. -/
theorem whole3 (c : Dev nD) (t : Fin cfg0.N) : (iblk0 (F := Ideal) V c 3 t : S3x32.Idx → EReal) = V c main_arg3 := by
  funext y
  show V c main_arg3 (((cfg0.win 3).blk t).view.emb y) = V c main_arg3 y
  refine congrArg _ (funext fun a => Fin.ext ?_)
  obtain ⟨e0, e1, e2, e3, e4, e5, e6, e7, e8, e9, e10, e11, e12, e13, e14, e15, e16, e17, e18, e19⟩ := idx_whole t
  match a with
  | ⟨0, _⟩ => show win0_3.index t (0 : Fin 2) * 3 + 1 * (y 0).val = (y 0).val; omega
  | ⟨1, _⟩ => show win0_3.index t (1 : Fin 2) * 32 + 1 * (y 1).val = (y 1).val; omega

/-- Window 4's block is its whole array, at every point. -/
theorem whole4 (c : Dev nD) (t : Fin cfg0.N) : (iblk0 (F := Ideal) V c 4 t : S1x32.Idx → EReal) = V c main_v36 := by
  funext y
  show V c main_v36 (((cfg0.win 4).blk t).view.emb y) = V c main_v36 y
  refine congrArg _ (funext fun a => Fin.ext ?_)
  obtain ⟨e0, e1, e2, e3, e4, e5, e6, e7, e8, e9, e10, e11, e12, e13, e14, e15, e16, e17, e18, e19⟩ := idx_whole t
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- Window 5's block is its whole array, at every point. -/
theorem whole5 (c : Dev nD) (t : Fin cfg0.N) : (iblk0 (F := Ideal) V c 5 t : S32x32.Idx → EReal) = V c main_arg5 := by
  funext y
  show V c main_arg5 (((cfg0.win 5).blk t).view.emb y) = V c main_arg5 y
  refine congrArg _ (funext fun a => Fin.ext ?_)
  obtain ⟨e0, e1, e2, e3, e4, e5, e6, e7, e8, e9, e10, e11, e12, e13, e14, e15, e16, e17, e18, e19⟩ := idx_whole t
  match a with
  | ⟨0, _⟩ => show win0_5.index t (0 : Fin 2) * 32 + 1 * (y 0).val = (y 0).val; omega
  | ⟨1, _⟩ => show win0_5.index t (1 : Fin 2) * 32 + 1 * (y 1).val = (y 1).val; omega

/-- Window 6's block is its whole array, at every point. -/
theorem whole6 (c : Dev nD) (t : Fin cfg0.N) : (iblk0 (F := Ideal) V c 6 t : S1x32.Idx → EReal) = V c main_v37 := by
  funext y
  show V c main_v37 (((cfg0.win 6).blk t).view.emb y) = V c main_v37 y
  refine congrArg _ (funext fun a => Fin.ext ?_)
  obtain ⟨e0, e1, e2, e3, e4, e5, e6, e7, e8, e9, e10, e11, e12, e13, e14, e15, e16, e17, e18, e19⟩ := idx_whole t
  match a with
  | ⟨0, _⟩ => show win0_6.index t (0 : Fin 2) * 1 + 1 * (y 0).val = (y 0).val; omega
  | ⟨1, _⟩ => show win0_6.index t (1 : Fin 2) * 32 + 1 * (y 1).val = (y 1).val; omega

/-- Window 7's block is its whole array, at every point. -/
theorem whole7 (c : Dev nD) (t : Fin cfg0.N) : (iblk0 (F := Ideal) V c 7 t : S128x128.Idx → EReal) = V c main_v33 := by
  funext y
  show V c main_v33 (((cfg0.win 7).blk t).view.emb y) = V c main_v33 y
  refine congrArg _ (funext fun a => Fin.ext ?_)
  obtain ⟨e0, e1, e2, e3, e4, e5, e6, e7, e8, e9, e10, e11, e12, e13, e14, e15, e16, e17, e18, e19⟩ := idx_whole t
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8's block is its whole array, at every point. -/
theorem whole8 (c : Dev nD) (t : Fin cfg0.N) : (iblk0 (F := Ideal) V c 8 t : S128x128.Idx → EReal) = V c main_v34 := by
  funext y
  show V c main_v34 (((cfg0.win 8).blk t).view.emb y) = V c main_v34 y
  refine congrArg _ (funext fun a => Fin.ext ?_)
  obtain ⟨e0, e1, e2, e3, e4, e5, e6, e7, e8, e9, e10, e11, e12, e13, e14, e15, e16, e17, e18, e19⟩ := idx_whole t
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- Window 9's block is its whole array, at every point. -/
theorem whole9 (c : Dev nD) (t : Fin cfg0.N) : (iblk0 (F := Ideal) V c 9 t : S32x128.Idx → EReal) = V c main_v35 := by
  funext y
  show V c main_v35 (((cfg0.win 9).blk t).view.emb y) = V c main_v35 y
  refine congrArg _ (funext fun a => Fin.ext ?_)
  obtain ⟨e0, e1, e2, e3, e4, e5, e6, e7, e8, e9, e10, e11, e12, e13, e14, e15, e16, e17, e18, e19⟩ := idx_whole t
  match a with
  | ⟨0, _⟩ => show win0_9.index t (0 : Fin 2) * 32 + 1 * (y 0).val = (y 0).val; omega
  | ⟨1, _⟩ => show win0_9.index t (1 : Fin 2) * 128 + 1 * (y 1).val = (y 1).val; omega

/-- Window 10's block is its whole array, at every point. -/
theorem whole10 (c : Dev nD) (t : Fin cfg0.N) : (iblk0 (F := Ideal) V c 10 t : S1x128.Idx → EReal) = V c main_v38 := by
  funext y
  show V c main_v38 (((cfg0.win 10).blk t).view.emb y) = V c main_v38 y
  refine congrArg _ (funext fun a => Fin.ext ?_)
  obtain ⟨e0, e1, e2, e3, e4, e5, e6, e7, e8, e9, e10, e11, e12, e13, e14, e15, e16, e17, e18, e19⟩ := idx_whole t
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- Window 11's block is its whole array, at every point. -/
theorem whole11 (c : Dev nD) (t : Fin cfg0.N) : (iblk0 (F := Ideal) V c 11 t : S128x128.Idx → EReal) = V c main_arg9 := by
  funext y
  show V c main_arg9 (((cfg0.win 11).blk t).view.emb y) = V c main_arg9 y
  refine congrArg _ (funext fun a => Fin.ext ?_)
  obtain ⟨e0, e1, e2, e3, e4, e5, e6, e7, e8, e9, e10, e11, e12, e13, e14, e15, e16, e17, e18, e19⟩ := idx_whole t
  match a with
  | ⟨0, _⟩ => show win0_11.index t (0 : Fin 2) * 128 + 1 * (y 0).val = (y 0).val; omega
  | ⟨1, _⟩ => show win0_11.index t (1 : Fin 2) * 128 + 1 * (y 1).val = (y 1).val; omega

/-- Window 12's block is its whole array, at every point. -/
theorem whole12 (c : Dev nD) (t : Fin cfg0.N) : (iblk0 (F := Ideal) V c 12 t : S1x128.Idx → EReal) = V c main_v39 := by
  funext y
  show V c main_v39 (((cfg0.win 12).blk t).view.emb y) = V c main_v39 y
  refine congrArg _ (funext fun a => Fin.ext ?_)
  obtain ⟨e0, e1, e2, e3, e4, e5, e6, e7, e8, e9, e10, e11, e12, e13, e14, e15, e16, e17, e18, e19⟩ := idx_whole t
  match a with
  | ⟨0, _⟩ => show win0_12.index t (0 : Fin 2) * 1 + 1 * (y 0).val = (y 0).val; omega
  | ⟨1, _⟩ => show win0_12.index t (1 : Fin 2) * 128 + 1 * (y 1).val = (y 1).val; omega

/-- Row (j 0) of window 0's block at point t is the array's row under the output block's row (j 0). -/
theorem rows0 (c : Dev nD) (t : Fin cfg0.N) (j : S3200x128.Idx) (k : Fin 128) :
    iblk0 (F := Ideal) V c 0 t (ix2 (j 0) k) = V c main_v10 (ix2 ((((cfg0.win 13).blk t).view.emb j) 0) k) := by
  show V c main_v10 (((cfg0.win 0).blk t).view.emb (ix2 (j 0) k)) = _
  refine congrArg _ (funext fun a => Fin.ext ?_)
  obtain ⟨e0, e1, e2, e3, e4, e5, e6, e7⟩ := idx_rows t
  match a with
  | ⟨0, _⟩ => show win0_0.index t (0 : Fin 2) * 3200 + 1 * (j 0).val = win0_13.index t (0 : Fin 2) * 3200 + 1 * (j 0).val; omega
  | ⟨1, _⟩ => show win0_0.index t (1 : Fin 2) * 128 + 1 * k.val = k.val; omega

/-- Row (j 0) of window 1's block at point t is the array's row under the output block's row (j 0). -/
theorem rows1 (c : Dev nD) (t : Fin cfg0.N) (j : S3200x128.Idx) (k : Fin 128) :
    iblk0 (F := Ideal) V c 1 t (ix2 (j 0) k) = V c main_v17 (ix2 ((((cfg0.win 13).blk t).view.emb j) 0) k) := by
  show V c main_v17 (((cfg0.win 1).blk t).view.emb (ix2 (j 0) k)) = _
  refine congrArg _ (funext fun a => Fin.ext ?_)
  obtain ⟨e0, e1, e2, e3, e4, e5, e6, e7⟩ := idx_rows t
  match a with
  | ⟨0, _⟩ => show win0_1.index t (0 : Fin 2) * 3200 + 1 * (j 0).val = win0_13.index t (0 : Fin 2) * 3200 + 1 * (j 0).val; omega
  | ⟨1, _⟩ => show win0_1.index t (1 : Fin 2) * 128 + 1 * k.val = k.val; omega

/-- Row (j 0) of window 2's block at point t is the array's row under the output block's row (j 0). -/
theorem rows2 (c : Dev nD) (t : Fin cfg0.N) (j : S3200x128.Idx) (k : Fin 3) :
    iblk0 (F := Ideal) V c 2 t (ix2 (j 0) k) = V c main_v32 (ix2 ((((cfg0.win 13).blk t).view.emb j) 0) k) := by
  show V c main_v32 (((cfg0.win 2).blk t).view.emb (ix2 (j 0) k)) = _
  refine congrArg _ (funext fun a => Fin.ext ?_)
  obtain ⟨e0, e1, e2, e3, e4, e5, e6, e7⟩ := idx_rows t
  match a with
  | ⟨0, _⟩ => show win0_2.index t (0 : Fin 2) * 3200 + 1 * (j 0).val = win0_13.index t (0 : Fin 2) * 3200 + 1 * (j 0).val; omega
  | ⟨1, _⟩ => show win0_2.index t (1 : Fin 2) * 3 + 1 * k.val = k.val; omega

/-- The output block's column coordinate is the array's. -/
theorem col13 (t : Fin cfg0.N) (j : S3200x128.Idx) : ((((cfg0.win 13).blk t).view.emb j) 1).val = (j 1).val := by
  obtain ⟨e0, e1, e2, e3, e4, e5, e6, e7⟩ := idx_rows t
  show win0_13.index t (1 : Fin 2) * 128 + 1 * (j 1).val = (j 1).val
  omega

end Blocks

/-- One entry of the message block, against the arrays its input blocks were cut from. -/
theorem point (XR XC : Arr2 800000 128) (PD : Arr2 800000 3) (pw1 : Arr2 3 32) (pb1 : Arr2 1 32) (pw2 : Arr2 32 32)
    (pb2 : Arr2 1 32) (wr wc : Arr2 128 128) (wp : Arr2 32 128) (mb1 : Arr2 1 128) (mw2 : Arr2 128 128) (mb2 : Arr2 1 128)
    (x0 x1 : Vec Ideal S3200x128 .f32) (x2 : Vec Ideal S3200x3 .f32) (x3 : Vec Ideal S3x32 .f32)
    (x4 : Vec Ideal S1x32 .f32) (x5 : Vec Ideal S32x32 .f32) (x6 : Vec Ideal S1x32 .f32)
    (x7 x8 : Vec Ideal S128x128 .f32) (x9 : Vec Ideal S32x128 .f32) (x10 : Vec Ideal S1x128 .f32)
    (x11 : Vec Ideal S128x128 .f32) (x12 : Vec Ideal S1x128 .f32)
    (i : S800000x128.Idx) (j : S3200x128.Idx)
    (h0 : ∀ k : Fin 128, x0 (ix2 (j 0) k) = XR (ix2 (i 0) k))
    (h1 : ∀ k : Fin 128, x1 (ix2 (j 0) k) = XC (ix2 (i 0) k))
    (h2 : ∀ k : Fin 3, x2 (ix2 (j 0) k) = PD (ix2 (i 0) k))
    (h3 : x3 = pw1) (h4 : x4 = pb1) (h5 : x5 = pw2) (h6 : x6 = pb2) (h7 : x7 = wr) (h8 : x8 = wc) (h9 : x9 = wp)
    (h10 : x10 = mb1) (h11 : x11 = mw2) (h12 : x12 = mb2) (hq : (i 1).val = (j 1).val) :
    k0_pay1 (F := Ideal) (k0_pay2 x0) (k0_pay3 x1) (k0_pay4 x2 x3 x4 x5 x6) (k0_pay5 x7) (k0_pay6 x8) (k0_pay7 x9) x10 x11 x12 j
      = MsgK XR XC PD pw1 pb1 pw2 pb2 wr wc wp mb1 mw2 mb2 i := by
  subst h3 h4 h5 h6 h7 h8 h9 h10 h11 h12
  obtain ⟨p, q, rfl⟩ : ∃ (p : Fin 3200) (q : Fin 128), j = ix2 p q := ⟨j 0, j 1, eq_ix2 j⟩
  rw [pay1_apply]
  unfold MsgK
  have r0 : row x0 p = row XR (i 0) := funext h0
  have r1 : row x1 p = row XC (i 0) := funext h1
  have r2 : row x2 p = row PD (i 0) := funext h2
  have rq : i 1 = q := Fin.ext hq
  rw [r0, r1, r2, rq]

section Final

variable (V : (c : Dev nD) → (b : Ref sig .tc) → Buf (Elt Ideal) ((c : Thread nD τ).loc b))

/-- What point t writes back is block t of the message array of the region-entry contents. -/
theorem flushed_eq (c : Dev nD) (t : Fin cfg0.N) :
    (dat0 (F := Ideal) V c).flushed 13 t = ((cfg0.win 13).blk t).view.read (Elt Ideal)
      (MsgK (V c main_v10) (V c main_v17) (V c main_v32) (V c main_arg3) (V c main_v36) (V c main_arg5) (V c main_v37)
          (V c main_v33) (V c main_v34) (V c main_v35) (V c main_v38) (V c main_arg9) (V c main_v39)) := by
  show (cfg0.win 13).cut (grid0.coords t) ((dat0 V c).after 13 t) = _
  rw [after0_13]
  unfold out0_13
  rw [View.canon_unit_zero hz]
  simp only [View.ld_unit_zero (S := S3200x128) hz, View.ld_unit_zero (S := S3200x3) hz, View.ld_unit_zero (S := S3x32) hz, View.ld_unit_zero (S := S1x32) hz, View.ld_unit_zero (S := S32x32) hz, View.ld_unit_zero (S := S128x128) hz, View.ld_unit_zero (S := S32x128) hz, View.ld_unit_zero (S := S1x128) hz]
  funext j
  exact point (V c main_v10) (V c main_v17) (V c main_v32) (V c main_arg3) (V c main_v36) (V c main_arg5) (V c main_v37) (V c main_v33) (V c main_v34) (V c main_v35) (V c main_v38) (V c main_arg9) (V c main_v39)
    (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) (iblk0 V c 11 t) (iblk0 V c 12 t)
    (((cfg0.win 13).blk t).view.emb j) j (rows0 V c t j) (rows1 V c t j) (rows2 V c t j)
    (whole3 V c t) (whole4 V c t) (whole5 V c t) (whole6 V c t) (whole7 V c t) (whole8 V c t) (whole9 V c t)
    (whole10 V c t) (whole11 V c t) (whole12 V c t) (col13 t j)

/-- An index of the array is in point t's block iff each coordinate is in the block's range on its axis. -/
theorem mem_blk (t : Fin cfg0.N) (i : S800000x128.Idx) :
    i ∈ ((cfg0.win 13).blk t).view.set ↔ ∀ a : Fin 2, win0_13.index t a * S3200x128.size a ≤ (i a).val
      ∧ (i a).val < win0_13.index t a * S3200x128.size a + S3200x128.size a := by
  show i ∈ ((View.whole main_v40).slice (win0_13.rect t)).set ↔ _
  rw [View.set_slice_whole, Rect.mem_set_unit]
  exact Iff.rfl

/-- Row r of the array lies in the block of point r / 3200, and every point writes back. -/
theorem cover (i : S800000x128.Idx) :
    ∃ t : Fin cfg0.N, (cfg0.win 13).flush t = true ∧ i ∈ ((cfg0.win 13).blk t).view.set := by
  have hi0 : (i 0).val < 800000 := (i 0).isLt
  have hi1 : (i 1).val < 128 := (i 1).isLt
  have hN : cfg0.N = 250 := rfl
  have ht : (i 0).val / 3200 < cfg0.N := by omega
  obtain ⟨e0, e1, e2, e3, e4, e5, e6, e7⟩ := idx_rows ⟨(i 0).val / 3200, ht⟩
  refine ⟨⟨(i 0).val / 3200, ht⟩, flush0_13 _, ?_⟩
  rw [mem_blk]
  intro a
  match a with
  | ⟨0, _⟩ =>
    show win0_13.index ⟨(i 0).val / 3200, ht⟩ (0 : Fin 2) * 3200 ≤ (i 0).val
      ∧ (i 0).val < win0_13.index ⟨(i 0).val / 3200, ht⟩ (0 : Fin 2) * 3200 + 3200
    rw [e6]
    show (i 0).val / 3200 * 3200 ≤ (i 0).val ∧ (i 0).val < (i 0).val / 3200 * 3200 + 3200
    omega
  | ⟨1, _⟩ =>
    show win0_13.index ⟨(i 0).val / 3200, ht⟩ (1 : Fin 2) * 128 ≤ (i 1).val
      ∧ (i 1).val < win0_13.index ⟨(i 0).val / 3200, ht⟩ (1 : Fin 2) * 128 + 128
    rw [e7]
    omega

/-- The output array after the region: the message array of the region-entry contents. -/
theorem final0 (c : Dev nD) :
    (Cert.KernelIdeal.Gen.dat0 (F := Ideal) V c).arrAt 13 cfg0.N
      = Cert.Spec.MsgK (V c main_v10) (V c main_v17) (V c main_v32) (V c main_arg3) (V c main_v36) (V c main_arg5) (V c main_v37)
          (V c main_v33) (V c main_v34) (V c main_v35) (V c main_v38) (V c main_arg9) (V c main_v39) :=
  (dat0 (F := Ideal) V c).arrAt_eq_of_cover 13 _ (fun t _ => flushed_eq V c t) cover

end Final

end Cert.KernelIdeal.Reg0

end
-- ==== Proof.Region1.lean ====
/-
  Region 1 (the node-update perceptron) read as a value: the output array after the last grid point is the
  whole-array function `Cert.Spec.UpdK` of the seven input arrays as the region finds them.

  Each grid point `t` of ten computes, for the 5000 rows `5000 t … 5000 t + 4999`, a dense layer on the node row and the
  aggregated-message row (two partial products added), the rectifier, and a second dense layer; the ten row blocks
  tile the 50000 rows, so every output element is written by exactly the point `r / 5000` of its row `r`.
-/
import proofs.«162276_j49495203119136_1_alg».proof.Proof.Gen.KernelIdeal.Frame
import proofs.«162276_j49495203119136_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (row mat dense dense2 UpdK)

/-! ## One matrix product of the body read at an index -/

/-- The left operand's row coordinate is the output's. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction index. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction index. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] × [128,128] product into a zero accumulator, at row `p` and column `q`: the sum over the 128
    contraction indices of the left row's entries times the right column's. -/
theorem matmul_at {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's stored value at an index -/

/-- Row `p`, column `q` of what a grid point stores, from the seven blocks it loaded: the second dense layer on the
    rectified first layer, whose two partial products (the node row against its weight block, the aggregated row
    against its own) are added before the bias. The casts to the narrower float format are the identity on the
    extended reals, the one-row biases are read at their row 0, and the zero literal is the extended real 0. -/
theorem pay_at (x0 x1 : Vec Ideal S5000x128 .f32) (x2 x3 : Vec Ideal S128x128 .f32) (x4 : Vec Ideal S1x128 .f32)
    (x5 : Vec Ideal S128x128 .f32) (x6 : Vec Ideal S1x128 .f32) (p : Fin 5000) (q : Fin 128) :
    k1_pay1 (F := Ideal) x0 x1 x2 x3 x4 x5 x6 (ix2 p q)
      = dense (fun h => max (dense2 (row x0 p) (row x1 p) (mat x2) (mat x3) (row x4 0) h) 0) (mat x5) (row x6 0) q := by
  unfold k1_pay1
  simp only [shapeCast_self]
  rw [addf_apply, matmul_at, broadcastTo_1b_ab_apply]
  unfold dense
  refine congrArg₂ (· + ·) (Finset.sum_congr rfl fun k _ => ?_) rfl
  refine congrArg₂ (· * ·) ?_ rfl
  rw [truncf_apply, maximumf_apply, addf_apply, addf_apply, matmul_at, matmul_at, broadcastTo_1b_ab_apply, broadcast_apply]
  refine congrArg₂ max ?_ Ideal.ofBits_zero_f32
  rfl

/-! ## Where each window's block sits in its array -/

theorem hz : (![0, 0] : Fin 2 → Nat) = fun _ => 0 := funext fun a => by fin_cases a <;> rfl

/-- The block indices, decided over the ten grid points: the two row-blocked inputs and the output are at block `t` on
    the row axis and block 0 on the column axis; the five whole-array inputs are at block 0 on both. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

section Blocks
variable (V : (c : Dev nD) → (b : Ref sig .tc) → Buf (Elt Ideal) ((c : Thread nD τ).loc b)) (c : Dev nD) (t : Fin cfg1.N)

/-- Row `p` of the node block at point `t` is row `5000 t + p` of the node array. -/
theorem blk0_at (p : Fin 5000) (k : Fin 128) (r : Fin 50000) (hr : r.val = t.val * 5000 + p.val) :
    (iblk1 V c 0 t : Vec Ideal S5000x128 .f32) (ix2 p k) = (V c main_arg0 : S50000x128.Idx → EReal) (ix2 r k) := by
  obtain ⟨e0, e1, -⟩ := idx_facts t
  show V c main_arg0 (((cfg1.win 0).blk t).view.emb (ix2 p k)) = V c main_arg0 (ix2 r k)
  refine congrArg (V c main_arg0) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Row `p` of the aggregated-message block at point `t` is row `5000 t + p` of that array. -/
theorem blk1_at (p : Fin 5000) (k : Fin 128) (r : Fin 50000) (hr : r.val = t.val * 5000 + p.val) :
    (iblk1 V c 1 t : Vec Ideal S5000x128 .f32) (ix2 p k) = (V c main_v43 : S50000x128.Idx → EReal) (ix2 r k) := by
  obtain ⟨-, -, e0, e1, -⟩ := idx_facts t
  show V c main_v43 (((cfg1.win 1).blk t).view.emb (ix2 p k)) = V c main_v43 (ix2 r k)
  refine congrArg (V c main_v43) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The first weight block is the whole array at every point. -/
theorem blk2_eq : (iblk1 V c 2 t : Vec Ideal S128x128 .f32) = (V c main_v44 : S128x128.Idx → EReal) := by
  obtain ⟨-, -, -, -, e0, e1, -⟩ := idx_facts t
  funext y
  show V c main_v44 (((cfg1.win 2).blk t).view.emb y) = V c main_v44 y
  refine congrArg (V c main_v44) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The second weight block is the whole array at every point. -/
theorem blk3_eq : (iblk1 V c 3 t : Vec Ideal S128x128 .f32) = (V c main_v45 : S128x128.Idx → EReal) := by
  obtain ⟨-, -, -, -, -, -, e0, e1, -⟩ := idx_facts t
  funext y
  show V c main_v45 (((cfg1.win 3).blk t).view.emb y) = V c main_v45 y
  refine congrArg (V c main_v45) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The first bias block is the whole one-row array at every point. -/
theorem blk4_eq : (iblk1 V c 4 t : Vec Ideal S1x128 .f32) = (V c main_v46 : S1x128.Idx → EReal) := by
  obtain ⟨-, -, -, -, -, -, -, -, e0, e1, -⟩ := idx_facts t
  funext y
  show V c main_v46 (((cfg1.win 4).blk t).view.emb y) = V c main_v46 y
  refine congrArg (V c main_v46) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The second layer's weight block is the whole array at every point. -/
theorem blk5_eq : (iblk1 V c 5 t : Vec Ideal S128x128 .f32) = (V c main_arg13 : S128x128.Idx → EReal) := by
  obtain ⟨-, -, -, -, -, -, -, -, -, -, e0, e1, -⟩ := idx_facts t
  funext y
  show V c main_arg13 (((cfg1.win 5).blk t).view.emb y) = V c main_arg13 y
  refine congrArg (V c main_arg13) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- The second bias block is the whole one-row array at every point. -/
theorem blk6_eq : (iblk1 V c 6 t : Vec Ideal S1x128 .f32) = (V c main_v47 : S1x128.Idx → EReal) := by
  obtain ⟨-, -, -, -, -, -, -, -, -, -, -, -, e0, e1, -⟩ := idx_facts t
  funext y
  show V c main_v47 (((cfg1.win 6).blk t).view.emb y) = V c main_v47 y
  refine congrArg (V c main_v47) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

end Blocks

/-! ## What a point writes back, the cover, and the array after the last point -/

/-- The body's stored value at row `p`, column `q` is the update function at row `r`, column `q`, as soon as the two
    row-blocked inputs' rows `p` are the arrays' rows `r` and the five other blocks are the whole arrays. -/
theorem pay_eq_UpdK (x0 x1 : Vec Ideal S5000x128 .f32) (x2 x3 : Vec Ideal S128x128 .f32) (x4 : Vec Ideal S1x128 .f32)
    (x5 : Vec Ideal S128x128 .f32) (x6 : Vec Ideal S1x128 .f32)
    (X AGG : Cert.Spec.Arr2 50000 128) (ux ua : Cert.Spec.Arr2 128 128) (ub1 : Cert.Spec.Arr2 1 128) (uw2 : Cert.Spec.Arr2 128 128)
    (ub2 : Cert.Spec.Arr2 1 128) (p : Fin 5000) (q : Fin 128) (r : Fin 50000)
    (h0 : ∀ k : Fin 128, x0 (ix2 p k) = X (ix2 r k)) (h1 : ∀ k : Fin 128, x1 (ix2 p k) = AGG (ix2 r k))
    (h2 : x2 = ux) (h3 : x3 = ua) (h4 : x4 = ub1) (h5 : x5 = uw2) (h6 : x6 = ub2) :
    k1_pay1 (F := Ideal) x0 x1 x2 x3 x4 x5 x6 (ix2 p q) = UpdK X AGG ux ua ub1 uw2 ub2 (ix2 r q) := by
  subst h2 h3 h4 h5 h6
  rw [pay_at]
  have e0 : row x0 p = row X r := funext h0
  have e1 : row x1 p = row AGG r := funext h1
  rw [e0, e1]
  rfl

section Final
variable (V : (c : Dev nD) → (b : Ref sig .tc) → Buf (Elt Ideal) ((c : Thread nD τ).loc b)) (c : Dev nD)

/-- What point `t` writes back is block `t` of the update function of the arrays as the region finds them. -/
theorem flushed_eq (t : Fin cfg1.N) :
    (dat1 (F := Ideal) V c).flushed 7 t
      = ((cfg1.win 7).blk t).view.read (Elt Ideal)
          (UpdK (V c main_arg0) (V c main_v43) (V c main_v44) (V c main_v45) (V c main_v46) (V c main_arg13) (V c main_v47)) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  obtain ⟨-, -, -, -, -, -, -, -, -, -, -, -, -, -, e0, e1⟩ := idx_facts t
  have hN : t.val < 10 := lt_of_lt_of_eq t.isLt N_1
  funext j
  have hp : (j 0).val < 5000 := (j 0).isLt
  have hq : (j 1).val < 128 := (j 1).isLt
  have hemb : ((cfg1.win 7).blk t).view.emb j
      = ix2 (⟨t.val * 5000 + (j 0).val, by omega⟩ : Fin 50000) (⟨(j 1).val, hq⟩ : Fin 128) := funext fun a => Fin.ext (by
    match a with
    | ⟨0, _⟩ => show win1_7.index t (0 : Fin 2) * 5000 + 1 * (j 0).val = t.val * 5000 + (j 0).val; omega
    | ⟨1, _⟩ => show win1_7.index t (1 : Fin 2) * 128 + 1 * (j 1).val = (j 1).val; omega)
  have hx : (cfg1.win 7).xinj (grid1.coords t) j = ix2 (⟨(j 0).val, hp⟩ : Fin 5000) (⟨(j 1).val, hq⟩ : Fin 128) :=
    funext fun a => match a with | ⟨0, _⟩ => rfl | ⟨1, _⟩ => rfl
  refine (congrArg (k1_pay1 (F := Ideal) (iblk1 V c 0 t) (iblk1 V c 1 t) (iblk1 V c 2 t) (iblk1 V c 3 t) (iblk1 V c 4 t) (iblk1 V c 5 t) (iblk1 V c 6 t)) hx).trans ?_
  refine Eq.trans ?_ (congrArg (UpdK (V c main_arg0) (V c main_v43) (V c main_v44) (V c main_v45) (V c main_v46) (V c main_arg13) (V c main_v47)) hemb.symm)
  exact pay_eq_UpdK _ _ _ _ _ _ _ _ _ _ _ _ _ _ _ _ _
    (fun k => blk0_at V c t _ k _ rfl) (fun k => blk1_at V c t _ k _ rfl)
    (blk2_eq V c t) (blk3_eq V c t) (blk4_eq V c t) (blk5_eq V c t) (blk6_eq V c t)

/-- An index of the output array is in point `t`'s block iff each coordinate is in the block's range on its axis. -/
theorem mem_blk (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v48).slice (win1_7.rect t)).set ↔ _
  rw [View.set_slice_whole, Rect.mem_set_unit]
  exact Iff.rfl

/-- Every output index is in the block of the point its row falls to: row `r` is written by point `r / 5000`. -/
theorem cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have ht : (i 0).val / 5000 < cfg1.N := lt_of_lt_of_eq (by omega : (i 0).val / 5000 < 10) N_1.symm
  obtain ⟨-, -, -, -, -, -, -, -, -, -, -, -, -, -, e0, e1⟩ := idx_facts ⟨(i 0).val / 5000, ht⟩
  have e0' : win1_7.index ⟨(i 0).val / 5000, ht⟩ (0 : Fin 2) = (i 0).val / 5000 := e0
  refine ⟨⟨(i 0).val / 5000, ht⟩, flush1_7 _, ?_⟩
  rw [mem_blk]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    omega
  | ⟨1, _⟩ =>
    show win1_7.index ⟨(i 0).val / 5000, ht⟩ (1 : Fin 2) * 128 ≤ (i 1).val
      ∧ (i 1).val < win1_7.index ⟨(i 0).val / 5000, ht⟩ (1 : Fin 2) * 128 + 128
    omega

/-- THE OUTPUT ARRAY after the last grid point is the update function of the seven input arrays as the region finds them. -/
theorem final1 :
    (Cert.KernelIdeal.Gen.dat1 (F := Ideal) V c).arrAt 7 cfg1.N
      = Cert.Spec.UpdK (V c main_arg0) (V c main_v43) (V c main_v44) (V c main_v45) (V c main_v46) (V c main_arg13) (V c main_v47) :=
  (dat1 (F := Ideal) V c).arrAt_eq_of_cover 7 _ (fun t _ => flushed_eq V c t) cover

end Final

end Cert.KernelIdeal.Reg1

end
-- ==== Proof.KernelHost.lean ====
/-
  What each buffer the kernel's two pipelined regions read holds at the region's entry, as the named
  host functions of the argument arrays.

  The host operations before a region form a straight line.  Each operation's result buffer holds its
  function of its operands' contents and every other buffer keeps what it held, so the contents of a
  buffer at the region's entry is the composed term of the operations that lead to it, read back to the
  launch memory.  Between the two host stretches lies region 0: it leaves its output array at what its
  pipeline wrote and every buffer that is none of its arrays as it was at its entry.
-/
import proofs.«162276_j49495203119136_1_alg».proof.Proof.Gen.KernelIdeal.Frame
import proofs.«162276_j49495203119136_1_alg».proof.Proof.HostFnsK
import Idealize.ShloMosaic.Lib.StableHlo.Run

noncomputable section

namespace Cert.KernelIdeal.HostVal

open Cert.KernelIdeal Cert.KernelIdeal.Facts₀ Idealize.ShloMosaic Idealize.ShloMosaic.TcCoe
open Cert.KernelIdeal.HostFns
open Idealize.ShloMosaic.StableHlo

variable (m : (ℓ : Loc nD τ sig) → Buf (Elt Ideal) ℓ) (ρ : Dev nD → PrngReg)

/-! ## Region 0's entry: the first host stretch read from the launch memory -/

/-- The gathered feature rows of the source nodes. -/
theorem V1_v10 (c : Dev nD) :
    Gen.V1 (F := Ideal) m ρ c main_v10 = gatherX (m ((c : Thread nD τ).loc main_arg0)) (rowIx (m ((c : Thread nD τ).loc main_arg2))) := by
  show StableHlo.after Gen.hostOps0 (Gen.W0 (F := Ideal) m ρ c) (Proc.devRef .tc main_v10) = _
  after_results_simp
  all_goals rfl

/-- The gathered feature rows of the destination nodes. -/
theorem V1_v17 (c : Dev nD) :
    Gen.V1 (F := Ideal) m ρ c main_v17 = gatherX (m ((c : Thread nD τ).loc main_arg0)) (colIx (m ((c : Thread nD τ).loc main_arg2))) := by
  show StableHlo.after Gen.hostOps0 (Gen.W0 (F := Ideal) m ρ c) (Proc.devRef .tc main_v17) = _
  after_results_simp
  all_goals rfl

/-- The position difference, source minus destination, per edge. -/
theorem V1_v32 (c : Dev nD) :
    Gen.V1 (F := Ideal) m ρ c main_v32 = posDiff (m ((c : Thread nD τ).loc main_arg1)) (m ((c : Thread nD τ).loc main_arg2)) := by
  show StableHlo.after Gen.hostOps0 (Gen.W0 (F := Ideal) m ρ c) (Proc.devRef .tc main_v32) = _
  after_results_simp
  all_goals rfl

/-- No host operation writes this argument: it is as launched. -/
theorem V1_arg3 (c : Dev nD) :
    Gen.V1 (F := Ideal) m ρ c main_arg3 = (m ((c : Thread nD τ).loc main_arg3)) := by
  show StableHlo.after Gen.hostOps0 (Gen.W0 (F := Ideal) m ρ c) (Proc.devRef .tc main_arg3) = _
  after_results_simp
  all_goals rfl

/-- No host operation writes this argument: it is as launched. -/
theorem V1_arg5 (c : Dev nD) :
    Gen.V1 (F := Ideal) m ρ c main_arg5 = (m ((c : Thread nD τ).loc main_arg5)) := by
  show StableHlo.after Gen.hostOps0 (Gen.W0 (F := Ideal) m ρ c) (Proc.devRef .tc main_arg5) = _
  after_results_simp
  all_goals rfl

/-- No host operation writes this argument: it is as launched. -/
theorem V1_arg9 (c : Dev nD) :
    Gen.V1 (F := Ideal) m ρ c main_arg9 = (m ((c : Thread nD τ).loc main_arg9)) := by
  show StableHlo.after Gen.hostOps0 (Gen.W0 (F := Ideal) m ρ c) (Proc.devRef .tc main_arg9) = _
  after_results_simp
  all_goals rfl

/-- A bias vector as a one-row matrix. -/
theorem V1_v36 (c : Dev nD) :
    Gen.V1 (F := Ideal) m ρ c main_v36 = shapeCast S1x32 (m ((c : Thread nD τ).loc main_arg4)) shapeCasts_S32_S1x32 := by
  show StableHlo.after Gen.hostOps0 (Gen.W0 (F := Ideal) m ρ c) (Proc.devRef .tc main_v36) = _
  after_results_simp
  all_goals rfl

/-- A bias vector as a one-row matrix. -/
theorem V1_v37 (c : Dev nD) :
    Gen.V1 (F := Ideal) m ρ c main_v37 = shapeCast S1x32 (m ((c : Thread nD τ).loc main_arg6)) shapeCasts_S32_S1x32 := by
  show StableHlo.after Gen.hostOps0 (Gen.W0 (F := Ideal) m ρ c) (Proc.devRef .tc main_v37) = _
  after_results_simp
  all_goals rfl

/-- A bias vector as a one-row matrix. -/
theorem V1_v38 (c : Dev nD) :
    Gen.V1 (F := Ideal) m ρ c main_v38 = shapeCast S1x128 (m ((c : Thread nD τ).loc main_arg8)) shapeCasts_S128_S1x128 := by
  show StableHlo.after Gen.hostOps0 (Gen.W0 (F := Ideal) m ρ c) (Proc.devRef .tc main_v38) = _
  after_results_simp
  all_goals rfl

/-- A bias vector as a one-row matrix. -/
theorem V1_v39 (c : Dev nD) :
    Gen.V1 (F := Ideal) m ρ c main_v39 = shapeCast S1x128 (m ((c : Thread nD τ).loc main_arg10)) shapeCasts_S128_S1x128 := by
  show StableHlo.after Gen.hostOps0 (Gen.W0 (F := Ideal) m ρ c) (Proc.devRef .tc main_v39) = _
  after_results_simp
  all_goals rfl

/-- Rows 0 to 127 of the stacked weight matrix. -/
theorem V1_v33 (c : Dev nD) :
    Gen.V1 (F := Ideal) m ρ c main_v33 = extractStridedSlice S128x128 ![0, 0] (m ((c : Thread nD τ).loc main_arg7)) slices_S288x128_S128x128_0_0 := by
  show StableHlo.after Gen.hostOps0 (Gen.W0 (F := Ideal) m ρ c) (Proc.devRef .tc main_v33) = _
  after_results_simp
  all_goals rfl

/-- Rows 128 to 255 of the stacked weight matrix. -/
theorem V1_v34 (c : Dev nD) :
    Gen.V1 (F := Ideal) m ρ c main_v34 = extractStridedSlice S128x128 ![128, 0] (m ((c : Thread nD τ).loc main_arg7)) slices_S288x128_S128x128_128_0 := by
  show StableHlo.after Gen.hostOps0 (Gen.W0 (F := Ideal) m ρ c) (Proc.devRef .tc main_v34) = _
  after_results_simp
  all_goals rfl

/-- Rows 256 to 287 of the stacked weight matrix. -/
theorem V1_v35 (c : Dev nD) :
    Gen.V1 (F := Ideal) m ρ c main_v35 = extractStridedSlice S32x128 ![256, 0] (m ((c : Thread nD τ).loc main_arg7)) slices_S288x128_S32x128_256_0 := by
  show StableHlo.after Gen.hostOps0 (Gen.W0 (F := Ideal) m ρ c) (Proc.devRef .tc main_v35) = _
  after_results_simp
  all_goals rfl

/-! ## Across region 0: what the second host stretch reads

  An argument is no array of region 0 and no host operation writes it, so at region 0's exit it is as
  launched; the destination-index vector was written by the first host stretch and is no array of region 0
  either; region 0's output array holds what its pipeline leaves. -/

theorem W2_arg0 (c : Dev nD) :
    Gen.W2 (F := Ideal) m ρ c (Proc.devRef .tc main_arg0) = (m ((c : Thread nD τ).loc main_arg0)) := by
  refine (Gen.W2_of_ne m ρ c main_arg0 (by decide)).trans ?_
  show StableHlo.after Gen.hostOps0 (Gen.W0 (F := Ideal) m ρ c) (Proc.devRef .tc main_arg0) = _
  after_results_simp
  all_goals rfl

theorem W2_arg11 (c : Dev nD) :
    Gen.W2 (F := Ideal) m ρ c (Proc.devRef .tc main_arg11) = (m ((c : Thread nD τ).loc main_arg11)) := by
  refine (Gen.W2_of_ne m ρ c main_arg11 (by decide)).trans ?_
  show StableHlo.after Gen.hostOps0 (Gen.W0 (F := Ideal) m ρ c) (Proc.devRef .tc main_arg11) = _
  after_results_simp
  all_goals rfl

theorem W2_arg12 (c : Dev nD) :
    Gen.W2 (F := Ideal) m ρ c (Proc.devRef .tc main_arg12) = (m ((c : Thread nD τ).loc main_arg12)) := by
  refine (Gen.W2_of_ne m ρ c main_arg12 (by decide)).trans ?_
  show StableHlo.after Gen.hostOps0 (Gen.W0 (F := Ideal) m ρ c) (Proc.devRef .tc main_arg12) = _
  after_results_simp
  all_goals rfl

theorem W2_arg13 (c : Dev nD) :
    Gen.W2 (F := Ideal) m ρ c (Proc.devRef .tc main_arg13) = (m ((c : Thread nD τ).loc main_arg13)) := by
  refine (Gen.W2_of_ne m ρ c main_arg13 (by decide)).trans ?_
  show StableHlo.after Gen.hostOps0 (Gen.W0 (F := Ideal) m ρ c) (Proc.devRef .tc main_arg13) = _
  after_results_simp
  all_goals rfl

theorem W2_arg14 (c : Dev nD) :
    Gen.W2 (F := Ideal) m ρ c (Proc.devRef .tc main_arg14) = (m ((c : Thread nD τ).loc main_arg14)) := by
  refine (Gen.W2_of_ne m ρ c main_arg14 (by decide)).trans ?_
  show StableHlo.after Gen.hostOps0 (Gen.W0 (F := Ideal) m ρ c) (Proc.devRef .tc main_arg14) = _
  after_results_simp
  all_goals rfl

/-- The destination-index vector after the first host stretch. -/
theorem W1_v3 (c : Dev nD) :
    Gen.W1 (F := Ideal) m ρ c (Proc.devRef .tc main_v3) = colIx (m ((c : Thread nD τ).loc main_arg2)) := by
  show StableHlo.after Gen.hostOps0 (Gen.W0 (F := Ideal) m ρ c) (Proc.devRef .tc main_v3) = _
  after_results_simp
  all_goals rfl

/-- The destination-index vector at region 0's exit. -/
theorem W2_v3 (c : Dev nD) :
    Gen.W2 (F := Ideal) m ρ c (Proc.devRef .tc main_v3) = colIx (m ((c : Thread nD τ).loc main_arg2)) :=
  (Gen.W2_of_ne m ρ c main_v3 (by decide)).trans (W1_v3 m ρ c)

/-- Region 0's output array at its exit: what the pipeline leaves. -/
theorem W2_v40 (c : Dev nD) :
    Gen.W2 (F := Ideal) m ρ c (Proc.devRef .tc main_v40)
      = (Gen.dat0 (F := Ideal) (Gen.V1 m ρ) c).arrAt 13 cfg0.N :=
  Gen.W2_arr m ρ c 13

/-! ## Region 1's entry: the second host stretch read from region 0's exit -/

/-- No host operation writes this argument and region 0 has it not: it is as launched. -/
theorem V3_arg0 (c : Dev nD) :
    Gen.V3 (F := Ideal) m ρ c main_arg0
      = (m ((c : Thread nD τ).loc main_arg0)) := by
  show StableHlo.after Gen.hostOps1 (Gen.W2 (F := Ideal) m ρ c) (Proc.devRef .tc main_arg0) = _
  after_results_simp
  rw [W2_arg0 m ρ c]
  all_goals rfl

/-- No host operation writes this argument and region 0 has it not: it is as launched. -/
theorem V3_arg13 (c : Dev nD) :
    Gen.V3 (F := Ideal) m ρ c main_arg13
      = (m ((c : Thread nD τ).loc main_arg13)) := by
  show StableHlo.after Gen.hostOps1 (Gen.W2 (F := Ideal) m ρ c) (Proc.devRef .tc main_arg13) = _
  after_results_simp
  rw [W2_arg13 m ρ c]
  all_goals rfl

/-- Region 0's messages summed into their destination nodes. -/
theorem V3_v43 (c : Dev nD) :
    Gen.V3 (F := Ideal) m ρ c main_v43
      = agg (m ((c : Thread nD τ).loc main_arg2)) ((Gen.dat0 (F := Ideal) (Gen.V1 m ρ) c).arrAt 13 cfg0.N) := by
  show StableHlo.after Gen.hostOps1 (Gen.W2 (F := Ideal) m ρ c) (Proc.devRef .tc main_v43) = _
  after_results_simp
  rw [W2_v40 m ρ c, W2_v3 m ρ c]
  all_goals rfl

/-- Rows 0 to 127 of the stacked weight matrix. -/
theorem V3_v44 (c : Dev nD) :
    Gen.V3 (F := Ideal) m ρ c main_v44
      = extractStridedSlice S128x128 ![0, 0] (m ((c : Thread nD τ).loc main_arg11)) slices_S256x128_S128x128_0_0 := by
  show StableHlo.after Gen.hostOps1 (Gen.W2 (F := Ideal) m ρ c) (Proc.devRef .tc main_v44) = _
  after_results_simp
  rw [W2_arg11 m ρ c]
  all_goals rfl

/-- Rows 128 to 255 of the stacked weight matrix. -/
theorem V3_v45 (c : Dev nD) :
    Gen.V3 (F := Ideal) m ρ c main_v45
      = extractStridedSlice S128x128 ![128, 0] (m ((c : Thread nD τ).loc main_arg11)) slices_S256x128_S128x128_128_0 := by
  show StableHlo.after Gen.hostOps1 (Gen.W2 (F := Ideal) m ρ c) (Proc.devRef .tc main_v45) = _
  after_results_simp
  rw [W2_arg11 m ρ c]
  all_goals rfl

/-- A bias vector as a one-row matrix. -/
theorem V3_v46 (c : Dev nD) :
    Gen.V3 (F := Ideal) m ρ c main_v46
      = shapeCast S1x128 (m ((c : Thread nD τ).loc main_arg12)) shapeCasts_S128_S1x128 := by
  show StableHlo.after Gen.hostOps1 (Gen.W2 (F := Ideal) m ρ c) (Proc.devRef .tc main_v46) = _
  after_results_simp
  rw [W2_arg12 m ρ c]
  all_goals rfl

/-- A bias vector as a one-row matrix. -/
theorem V3_v47 (c : Dev nD) :
    Gen.V3 (F := Ideal) m ρ c main_v47
      = shapeCast S1x128 (m ((c : Thread nD τ).loc main_arg14)) shapeCasts_S128_S1x128 := by
  show StableHlo.after Gen.hostOps1 (Gen.W2 (F := Ideal) m ρ c) (Proc.devRef .tc main_v47) = _
  after_results_simp
  rw [W2_arg14 m ρ c]
  all_goals rfl

end Cert.KernelIdeal.HostVal

end
-- ==== Proof.KernelValue.lean ====
/-
  The idealized kernel's result as one function of the argument arrays.  The second region leaves in the result
  array the update perceptron of each node's row and its aggregated messages; the aggregation is the scatter-add of
  the first region's output, which holds the message perceptron of each edge's gathered rows.  Read through the host
  steps (the weight blocks are row slices of the first-layer matrices, the biases one-row reshapes), both are the
  reference's concatenated-row perceptrons.
-/
import proofs.«162276_j49495203119136_1_alg».proof.Proof.Gen.KernelIdeal.Frame
import proofs.«162276_j49495203119136_1_alg».proof.Proof.Spec
import proofs.«162276_j49495203119136_1_alg».proof.Proof.HostFnsK
import proofs.«162276_j49495203119136_1_alg».proof.Proof.LibLayoutRead
import proofs.«162276_j49495203119136_1_alg».proof.Proof.Region0
import proofs.«162276_j49495203119136_1_alg».proof.Proof.Region1
import proofs.«162276_j49495203119136_1_alg».proof.Proof.KernelHost

noncomputable section

namespace Cert.KernelIdeal.KVal

open Cert.KernelIdeal Cert.KernelIdeal.Facts₀ Idealize.ShloMosaic Idealize.ShloMosaic.TcCoe Idealize.ShloMosaic.ValueIdx Idealize.SL.Sem

variable (m : (ℓ : Loc nD τ sig) → Buf (Elt Ideal) ℓ) (ρ : Dev nD → PrngReg)

/-- The result of the whole computation as one function of the argument arrays, in the reference's form: the
    update perceptron on each node's row and its aggregated messages, the messages the message perceptron on each
    edge's source row, destination row and position features. -/
abbrev Final (c : Dev nD) : (⟨S50000x128, .f32⟩ : BufTy).Contents (Elt Ideal) :=
  Cert.Spec.UpdR (m ((c : Thread nD τ).loc main_arg0)) (Cert.KernelIdeal.HostFns.agg (m ((c : Thread nD τ).loc main_arg2)) (Cert.Spec.MsgR (Cert.KernelIdeal.HostFns.gatherX (m ((c : Thread nD τ).loc main_arg0)) (Cert.KernelIdeal.HostFns.rowIx (m ((c : Thread nD τ).loc main_arg2)))) (Cert.KernelIdeal.HostFns.gatherX (m ((c : Thread nD τ).loc main_arg0)) (Cert.KernelIdeal.HostFns.colIx (m ((c : Thread nD τ).loc main_arg2)))) (Cert.KernelIdeal.HostFns.posDiff (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))) (m ((c : Thread nD τ).loc main_arg11)) (m ((c : Thread nD τ).loc main_arg12)) (m ((c : Thread nD τ).loc main_arg13)) (m ((c : Thread nD τ).loc main_arg14))

/-- Region 0 leaves in its output array the reference's messages of the gathered rows. -/
theorem messages_eq (c : Dev nD) :
    (Gen.dat0 (F := Ideal) (Gen.V1 m ρ) c).arrAt 13 cfg0.N
      = Cert.Spec.MsgR (HostFns.gatherX (m ((c : Thread nD τ).loc main_arg0)) (HostFns.rowIx (m ((c : Thread nD τ).loc main_arg2)))) (HostFns.gatherX (m ((c : Thread nD τ).loc main_arg0)) (HostFns.colIx (m ((c : Thread nD τ).loc main_arg2)))) (HostFns.posDiff (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Reg0.final0 (Gen.V1 m ρ) c, HostVal.V1_v10, HostVal.V1_v17, HostVal.V1_v32, HostVal.V1_arg3, HostVal.V1_v36, HostVal.V1_arg5,
    HostVal.V1_v37, HostVal.V1_v33, HostVal.V1_v34, HostVal.V1_v35, HostVal.V1_v38, HostVal.V1_arg9, HostVal.V1_v39]
  exact Cert.Spec.MsgK_eq_MsgR _ _ _ _ _ _ _ _ _ _ _ _ _ _ _ _ _ _
    (fun h => Cert.LibLayoutRead.shapeCast_row_apply _ _ h) (fun h => Cert.LibLayoutRead.shapeCast_row_apply _ _ h)
    (fun h => Cert.LibLayoutRead.shapeCast_row_apply _ _ h) (fun h => Cert.LibLayoutRead.shapeCast_row_apply _ _ h)
    (fun k h => (Cert.LibLayoutRead.rowSlice_apply 0 _ _ k h (by have := k.isLt; omega)).trans (by simp only [Nat.zero_add]))
    (fun k h => Cert.LibLayoutRead.rowSlice_apply 128 _ _ k h (by have := k.isLt; omega))
    (fun k h => Cert.LibLayoutRead.rowSlice_apply 256 _ _ k h (by have := k.isLt; omega))

/-- The kernel's result buffer after the run is `Final` of the arguments. -/
theorem result_eq (c : Dev nD) : Gen.W4 (F := Ideal) m ρ c (Proc.devRef .tc main_v48) = Final m c := by
  refine (Gen.W4_arr m ρ c 7).trans ?_
  rw [Reg1.final1 (Gen.V3 m ρ) c, HostVal.V3_arg0, HostVal.V3_v43, HostVal.V3_v44, HostVal.V3_v45, HostVal.V3_v46, HostVal.V3_arg13,
    HostVal.V3_v47, messages_eq m ρ c]
  exact Cert.Spec.UpdK_eq_UpdR _ _ _ _ _ _ _ _ _ _
    (fun h => Cert.LibLayoutRead.shapeCast_row_apply _ _ h) (fun h => Cert.LibLayoutRead.shapeCast_row_apply _ _ h)
    (fun k h => (Cert.LibLayoutRead.rowSlice_apply 0 _ _ k h (by have := k.isLt; omega)).trans (by simp only [Nat.zero_add]))
    (fun k h => Cert.LibLayoutRead.rowSlice_apply 128 _ _ k h (by have := k.isLt; omega))

end Cert.KernelIdeal.KVal

end
-- ==== Proof.HostFnsR.lean ====
/-
  The host-side steps both programs share, as named functions of the argument arrays (the reference's program).
  The edge list `ei` has the source nodes in row 0 and the destination nodes in row 1.  An index that is
  negative is moved up by the node count (python's wrap-around) before a gather; the scatter-add uses the
  destination indices as they are.
-/
import proofs.«162276_j49495203119136_1_alg».proof.Proof.Gen.ReferenceIdeal
import Idealize.ShloMosaic.PureOps.Ideal

noncomputable section

namespace Cert.ReferenceIdeal.HostFns

open Cert.ReferenceIdeal Cert.ReferenceIdeal.Facts₀ Idealize.ShloMosaic Idealize.ShloMosaic.TcCoe

/-- Row 0 of the edge list: the source node of every edge. -/
def rowIx (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- Row 1 of the edge list: the destination node of every edge. -/
def colIx (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- A negative index moved up by the node count. -/
def wrap (ix : (⟨S800000, .i32⟩ : BufTy).Contents (Elt Ideal)) : (⟨S800000, .i32⟩ : BufTy).Contents (Elt Ideal) :=
  select (cmpi .slt ix (broadcastInDim S800000 ![] bcast_S_S800000 (constantI S_ 32 0#32)))
    (addi ix (broadcastInDim S800000 ![] bcast_S_S800000 (constantI S_ 32 50000#32))) ix

/-- The index vector as a one-column matrix, the form gather and scatter take. -/
def asCol (ix : (⟨S800000, .i32⟩ : BufTy).Contents (Elt Ideal)) : (⟨S800000x1, .i32⟩ : BufTy).Contents (Elt Ideal) :=
  broadcastInDim S800000x1 ![0] bcast_S800000_S800000x1_0 ix

/-- The feature rows of the nodes an index vector names. -/
def gatherX (x : (⟨S50000x128, .f32⟩ : BufTy).Contents (Elt Ideal)) (ix : (⟨S800000, .i32⟩ : BufTy).Contents (Elt Ideal)) :
    (⟨S800000x128, .f32⟩ : BufTy).Contents (Elt Ideal) :=
  Host.gather gather_S50000x128_S800000x1_S800000x128_1_0_n_n_0_1_1128 x (asCol (wrap ix))

/-- The position rows of the nodes an index vector names. -/
def gatherP (p : (⟨S50000x3, .f32⟩ : BufTy).Contents (Elt Ideal)) (ix : (⟨S800000, .i32⟩ : BufTy).Contents (Elt Ideal)) :
    (⟨S800000x3, .f32⟩ : BufTy).Contents (Elt Ideal) :=
  Host.gather gather_S50000x3_S800000x1_S800000x3_1_0_n_n_0_1_13 p (asCol (wrap ix))

/-- Source position minus destination position, per edge. -/
def posDiff (p : (⟨S50000x3, .f32⟩ : BufTy).Contents (Elt Ideal)) (ei : (⟨S2x800000, .i32⟩ : BufTy).Contents (Elt Ideal)) :
    (⟨S800000x3, .f32⟩ : BufTy).Contents (Elt Ideal) :=
  subf (F := Ideal) (s := S800000x3) (φ := .f32) (gatherP p (rowIx ei)) (gatherP p (colIx ei))

/-- The messages summed into their destination nodes, from an all-zero array. -/
def agg (ei : (⟨S2x800000, .i32⟩ : BufTy).Contents (Elt Ideal)) (msgs : (⟨S800000x128, .f32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32)) (asCol (colIx ei)) msgs

end Cert.ReferenceIdeal.HostFns

end
-- ==== Proof.RefChain.lean ====
/-
  The reference's three dense stages as functions of ARBITRARY input arrays: the position perceptron, the message
  perceptron on the concatenated edge row, the update perceptron on the concatenated node row.  The reference's
  result is their composition with the shared host steps (gather, subtraction, scatter-add) in between.
-/
import proofs.«162276_j49495203119136_1_alg».proof.Proof.Gen.ReferenceIdeal
import Idealize.ShloMosaic.PureOps.Ideal

noncomputable section

namespace Cert.ReferenceIdeal.RefChain

open Cert.ReferenceIdeal Cert.ReferenceIdeal.Facts₀ Idealize.ShloMosaic Idealize.ShloMosaic.TcCoe Idealize.SL.Sem

variable {F : FTy → Type} [FloatOps F]

/-- A float array of the given shape. -/
abbrev A (F : FTy → Type) (s : Shape) := (⟨s, .f32⟩ : BufTy).Contents (Elt F)

/-- The position perceptron on every edge's position difference: `relu (PD · pw1 + pb1) · pw2 + pb2`. -/
def posChain (PD : A F S800000x3) (pw1 : A F S3x32) (pb1 : A F S32) (pw2 : A F S32x32) (pb2 : A F S32) : A F S800000x32 :=
  addf (Host.dotGeneral dot_S800000x32_S32x32_S800000x32_1_0_0_1_n_n none (maximumf (addf (Host.dotGeneral dot_S800000x3_S3x32_S800000x32_1_0_0_1_n_n none PD pw1) (broadcastInDim S800000x32 ![0, 1] bcast_S1x32_S800000x32_0_1 (broadcastInDim S1x32 ![1] bcast_S32_S1x32_1 pb1))) (broadcastInDim S800000x32 ![] bcast_S_S800000x32 (constant S_ .f32 0x00000000#32))) pw2) (broadcastInDim S800000x32 ![0, 1] bcast_S1x32_S800000x32_0_1 (broadcastInDim S1x32 ![1] bcast_S32_S1x32_1 pb2))

/-- The message perceptron on every edge's concatenated row `[XR | XC | PF]`. -/
def msgChain (XR XC : A F S800000x128) (PF : A F S800000x32) (mw1 : A F S288x128) (mb1 : A F S128) (mw2 : A F S128x128) (mb2 : A F S128) : A F S800000x128 :=
  addf (Host.dotGeneral dot_S800000x128_S128x128_S800000x128_1_0_0_1_n_n none (maximumf (addf (Host.dotGeneral dot_S800000x288_S288x128_S800000x128_1_0_0_1_n_n none (concatenate S800000x288 1 [⟨S800000x128, XR⟩, ⟨S800000x128, XC⟩, ⟨S800000x32, PF⟩] concatenates_S800000x128_S800000x128_S800000x32_S800000x288_d1) mw1) (broadcastInDim S800000x128 ![0, 1] bcast_S1x128_S800000x128_0_1 (broadcastInDim S1x128 ![1] bcast_S128_S1x128_1 mb1))) (broadcastInDim S800000x128 ![] bcast_S_S800000x128 (constant S_ .f32 0x00000000#32))) mw2) (broadcastInDim S800000x128 ![0, 1] bcast_S1x128_S800000x128_0_1 (broadcastInDim S1x128 ![1] bcast_S128_S1x128_1 mb2))

/-- The update perceptron on every node's concatenated row `[X | AGG]`. -/
def updChain (X AGG : A F S50000x128) (uw1 : A F S256x128) (ub1 : A F S128) (uw2 : A F S128x128) (ub2 : A F S128) : A F S50000x128 :=
  addf (Host.dotGeneral dot_S50000x128_S128x128_S50000x128_1_0_0_1_n_n none (maximumf (addf (Host.dotGeneral dot_S50000x256_S256x128_S50000x128_1_0_0_1_n_n none (concatenate S50000x256 1 [⟨S50000x128, X⟩, ⟨S50000x128, AGG⟩] concatenates_S50000x128_S50000x128_S50000x256_d1) uw1) (broadcastInDim S50000x128 ![0, 1] bcast_S1x128_S50000x128_0_1 (broadcastInDim S1x128 ![1] bcast_S128_S1x128_1 ub1))) (broadcastInDim S50000x128 ![] bcast_S_S50000x128 (constant S_ .f32 0x00000000#32))) uw2) (broadcastInDim S50000x128 ![0, 1] bcast_S1x128_S50000x128_0_1 (broadcastInDim S1x128 ![1] bcast_S128_S1x128_1 ub2))

end Cert.ReferenceIdeal.RefChain

end
-- ==== Proof.RefMsg.lean ====
/-
  The reference's message stage, read entry by entry.

  The message perceptron is applied to the concatenation along the feature axis of the source rows, the destination
  rows and the position perceptron's output. Entry `(e, o)` of the result is the two-layer perceptron
  `relu (a · mw1 + mb1) · mw2 + mb2` at `o`, on the row `a` of length 128 + 128 + 32 that lays row `e` of the three
  arrays end to end, the third being the two-layer position perceptron on row `e` of the position differences.
  Each matrix product is a finite sum over the one contracted axis; each bias is a vector repeated on every row; the
  rectifier is the maximum with zero.
-/
import proofs.«162276_j49495203119136_1_alg».proof.Proof.RefChain
import proofs.«162276_j49495203119136_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefMsg

open Cert.ReferenceIdeal Cert.ReferenceIdeal.RefChain Cert.ReferenceIdeal.Facts₀ Idealize.ShloMosaic Idealize.ShloMosaic.TcCoe Idealize.SL.Sem Idealize.ShloMosaic.ValueIdx Cert.Spec

/-- The concatenation of three arrays along axis 1, read at row `e` and column `k`, is the three rows laid end to end. -/
theorem cat_apply (XR XC : A Ideal S800000x128) (PF : A Ideal S800000x32) (e : Fin 800000) (k : Fin 288) :
    concatenate S800000x288 1 [⟨S800000x128, XR⟩, ⟨S800000x128, XC⟩, ⟨S800000x32, PF⟩]
        concatenates_S800000x128_S800000x128_S800000x32_S800000x288_d1 (ix2 e k)
      = cat3 (K₁ := 128) (K₂ := 128) (K₃ := 32) (row XR e) (row XC e) (row PF e) k := by
  unfold cat3
  by_cases h1 : k.val < 128
  · rw [dif_pos h1]
    refine concatenate_apply_piece (1 : Fin S800000x288.rank) _ _ (ix2 e k) 0 (by show 0 < 3; omega) S800000x128 XR rfl rfl 0 rfl
      (ix2 e ⟨k.val, h1⟩) (fun b hb => ?_) ?_
    · match b with
      | ⟨0, _⟩ => rfl
      | ⟨1, _⟩ => exact absurd rfl hb
    · show 0 + k.val = k.val
      omega
  · rw [dif_neg h1]
    by_cases h2 : k.val < 128 + 128
    · rw [dif_pos h2]
      refine concatenate_apply_piece (1 : Fin S800000x288.rank) _ _ (ix2 e k) 1 (by show 1 < 3; omega) S800000x128 XC rfl rfl 128 rfl
        (ix2 e ⟨k.val - 128, by omega⟩) (fun b hb => ?_) ?_
      · match b with
        | ⟨0, _⟩ => rfl
        | ⟨1, _⟩ => exact absurd rfl hb
      · show 128 + (k.val - 128) = k.val
        omega
    · rw [dif_neg h2]
      refine concatenate_apply_piece (1 : Fin S800000x288.rank) _ _ (ix2 e k) 2 (by show 2 < 3; omega) S800000x32 PF rfl rfl 256 rfl
        (ix2 e ⟨k.val - (128 + 128), by have := k.isLt; omega⟩) (fun b hb => ?_) ?_
      · match b with
        | ⟨0, _⟩ => rfl
        | ⟨1, _⟩ => exact absurd rfl hb
      · show 256 + (k.val - (128 + 128)) = k.val
        omega

/-! ### The contraction `[800000,3] · [3,32]` read at an index -/

theorem dotP1_lhs0 (i : S800000x32.Idx) (q : dot_S800000x3_S3x32_S800000x32_1_0_0_1_n_n.contr.Idx) :
    (dot_S800000x3_S3x32_S800000x32_1_0_0_1_n_n.lhsIdx i q 0).val = (i 0).val := by
  unfold DotDims.lhsIdx
  rw [dif_neg (show ¬(0 : Fin S800000x3.rank) ∈ dot_S800000x3_S3x32_S800000x32_1_0_0_1_n_n.lhsBatch by decide), dif_pos (show (0 : Fin S800000x3.rank) ∈ dot_S800000x3_S3x32_S800000x32_1_0_0_1_n_n.lhsNonContracting by decide)]
  rfl
theorem dotP1_lhs1 (i : S800000x32.Idx) (q : dot_S800000x3_S3x32_S800000x32_1_0_0_1_n_n.contr.Idx) :
    (dot_S800000x3_S3x32_S800000x32_1_0_0_1_n_n.lhsIdx i q 1).val = (q ⟨0, by decide⟩).val :=
  dot_S800000x3_S3x32_S800000x32_1_0_0_1_n_n.lhsIdx_val_of_single rfl i q
theorem dotP1_rhs0 (i : S800000x32.Idx) (q : dot_S800000x3_S3x32_S800000x32_1_0_0_1_n_n.contr.Idx) :
    (dot_S800000x3_S3x32_S800000x32_1_0_0_1_n_n.rhsIdx i q 0).val = (q ⟨0, by decide⟩).val :=
  dot_S800000x3_S3x32_S800000x32_1_0_0_1_n_n.rhsIdx_val_of_single rfl i q
theorem dotP1_rhs1 (i : S800000x32.Idx) (q : dot_S800000x3_S3x32_S800000x32_1_0_0_1_n_n.contr.Idx) :
    (dot_S800000x3_S3x32_S800000x32_1_0_0_1_n_n.rhsIdx i q 1).val = (i 1).val := by
  unfold DotDims.rhsIdx
  rw [dif_neg (show ¬(1 : Fin S3x32.rank) ∈ dot_S800000x3_S3x32_S800000x32_1_0_0_1_n_n.rhsBatch by decide), dif_pos (show (1 : Fin S3x32.rank) ∈ dot_S800000x3_S3x32_S800000x32_1_0_0_1_n_n.rhsNonContracting by decide)]
  rfl

/-- Entry `(e, o)` of the product is the sum over `k` of `Y (e, k) * W (k, o)`. -/
theorem dotP1_apply (Y : A Ideal S800000x3) (W : A Ideal S3x32) (e : Fin 800000) (o : Fin 32) :
    Host.dotGeneral (F := Ideal) (φ₁ := .f32) (φ₂ := .f32) dot_S800000x3_S3x32_S800000x32_1_0_0_1_n_n none Y W (ix2 e o) = ∑ k : Fin 3, Y (ix2 e k) * W (ix2 k o) := by
  simp only [Host.dotGeneral]
  rw [Ideal.dotGeneral_apply, ← Equiv.sum_comp (contrEquiv1 dot_S800000x3_S3x32_S800000x32_1_0_0_1_n_n 3 rfl rfl).symm]
  refine Finset.sum_congr rfl fun k _ => ?_
  have hk := contrEquiv1_symm_val dot_S800000x3_S3x32_S800000x32_1_0_0_1_n_n 3 rfl rfl k
  have el : dot_S800000x3_S3x32_S800000x32_1_0_0_1_n_n.lhsIdx (ix2 e o) ((contrEquiv1 dot_S800000x3_S3x32_S800000x32_1_0_0_1_n_n 3 rfl rfl).symm k) = ix2 e k := funext fun a => Fin.ext (by
    match a with
    | ⟨0, _⟩ => exact dotP1_lhs0 _ _
    | ⟨1, _⟩ => exact (dotP1_lhs1 _ _).trans hk)
  have er : dot_S800000x3_S3x32_S800000x32_1_0_0_1_n_n.rhsIdx (ix2 e o) ((contrEquiv1 dot_S800000x3_S3x32_S800000x32_1_0_0_1_n_n 3 rfl rfl).symm k) = ix2 k o := funext fun a => Fin.ext (by
    match a with
    | ⟨0, _⟩ => exact (dotP1_rhs0 _ _).trans hk
    | ⟨1, _⟩ => exact dotP1_rhs1 _ _)
  rw [el, er]

/-! ### The contraction `[800000,32] · [32,32]` read at an index -/

theorem dotP2_lhs0 (i : S800000x32.Idx) (q : dot_S800000x32_S32x32_S800000x32_1_0_0_1_n_n.contr.Idx) :
    (dot_S800000x32_S32x32_S800000x32_1_0_0_1_n_n.lhsIdx i q 0).val = (i 0).val := by
  unfold DotDims.lhsIdx
  rw [dif_neg (show ¬(0 : Fin S800000x32.rank) ∈ dot_S800000x32_S32x32_S800000x32_1_0_0_1_n_n.lhsBatch by decide), dif_pos (show (0 : Fin S800000x32.rank) ∈ dot_S800000x32_S32x32_S800000x32_1_0_0_1_n_n.lhsNonContracting by decide)]
  rfl
theorem dotP2_lhs1 (i : S800000x32.Idx) (q : dot_S800000x32_S32x32_S800000x32_1_0_0_1_n_n.contr.Idx) :
    (dot_S800000x32_S32x32_S800000x32_1_0_0_1_n_n.lhsIdx i q 1).val = (q ⟨0, by decide⟩).val :=
  dot_S800000x32_S32x32_S800000x32_1_0_0_1_n_n.lhsIdx_val_of_single rfl i q
theorem dotP2_rhs0 (i : S800000x32.Idx) (q : dot_S800000x32_S32x32_S800000x32_1_0_0_1_n_n.contr.Idx) :
    (dot_S800000x32_S32x32_S800000x32_1_0_0_1_n_n.rhsIdx i q 0).val = (q ⟨0, by decide⟩).val :=
  dot_S800000x32_S32x32_S800000x32_1_0_0_1_n_n.rhsIdx_val_of_single rfl i q
theorem dotP2_rhs1 (i : S800000x32.Idx) (q : dot_S800000x32_S32x32_S800000x32_1_0_0_1_n_n.contr.Idx) :
    (dot_S800000x32_S32x32_S800000x32_1_0_0_1_n_n.rhsIdx i q 1).val = (i 1).val := by
  unfold DotDims.rhsIdx
  rw [dif_neg (show ¬(1 : Fin S32x32.rank) ∈ dot_S800000x32_S32x32_S800000x32_1_0_0_1_n_n.rhsBatch by decide), dif_pos (show (1 : Fin S32x32.rank) ∈ dot_S800000x32_S32x32_S800000x32_1_0_0_1_n_n.rhsNonContracting by decide)]
  rfl

/-- Entry `(e, o)` of the product is the sum over `k` of `Y (e, k) * W (k, o)`. -/
theorem dotP2_apply (Y : A Ideal S800000x32) (W : A Ideal S32x32) (e : Fin 800000) (o : Fin 32) :
    Host.dotGeneral (F := Ideal) (φ₁ := .f32) (φ₂ := .f32) dot_S800000x32_S32x32_S800000x32_1_0_0_1_n_n none Y W (ix2 e o) = ∑ k : Fin 32, Y (ix2 e k) * W (ix2 k o) := by
  simp only [Host.dotGeneral]
  rw [Ideal.dotGeneral_apply, ← Equiv.sum_comp (contrEquiv1 dot_S800000x32_S32x32_S800000x32_1_0_0_1_n_n 32 rfl rfl).symm]
  refine Finset.sum_congr rfl fun k _ => ?_
  have hk := contrEquiv1_symm_val dot_S800000x32_S32x32_S800000x32_1_0_0_1_n_n 32 rfl rfl k
  have el : dot_S800000x32_S32x32_S800000x32_1_0_0_1_n_n.lhsIdx (ix2 e o) ((contrEquiv1 dot_S800000x32_S32x32_S800000x32_1_0_0_1_n_n 32 rfl rfl).symm k) = ix2 e k := funext fun a => Fin.ext (by
    match a with
    | ⟨0, _⟩ => exact dotP2_lhs0 _ _
    | ⟨1, _⟩ => exact (dotP2_lhs1 _ _).trans hk)
  have er : dot_S800000x32_S32x32_S800000x32_1_0_0_1_n_n.rhsIdx (ix2 e o) ((contrEquiv1 dot_S800000x32_S32x32_S800000x32_1_0_0_1_n_n 32 rfl rfl).symm k) = ix2 k o := funext fun a => Fin.ext (by
    match a with
    | ⟨0, _⟩ => exact (dotP2_rhs0 _ _).trans hk
    | ⟨1, _⟩ => exact dotP2_rhs1 _ _)
  rw [el, er]

/-! ### The contraction `[800000,288] · [288,128]` read at an index -/

theorem dotM1_lhs0 (i : S800000x128.Idx) (q : dot_S800000x288_S288x128_S800000x128_1_0_0_1_n_n.contr.Idx) :
    (dot_S800000x288_S288x128_S800000x128_1_0_0_1_n_n.lhsIdx i q 0).val = (i 0).val := by
  unfold DotDims.lhsIdx
  rw [dif_neg (show ¬(0 : Fin S800000x288.rank) ∈ dot_S800000x288_S288x128_S800000x128_1_0_0_1_n_n.lhsBatch by decide), dif_pos (show (0 : Fin S800000x288.rank) ∈ dot_S800000x288_S288x128_S800000x128_1_0_0_1_n_n.lhsNonContracting by decide)]
  rfl
theorem dotM1_lhs1 (i : S800000x128.Idx) (q : dot_S800000x288_S288x128_S800000x128_1_0_0_1_n_n.contr.Idx) :
    (dot_S800000x288_S288x128_S800000x128_1_0_0_1_n_n.lhsIdx i q 1).val = (q ⟨0, by decide⟩).val :=
  dot_S800000x288_S288x128_S800000x128_1_0_0_1_n_n.lhsIdx_val_of_single rfl i q
theorem dotM1_rhs0 (i : S800000x128.Idx) (q : dot_S800000x288_S288x128_S800000x128_1_0_0_1_n_n.contr.Idx) :
    (dot_S800000x288_S288x128_S800000x128_1_0_0_1_n_n.rhsIdx i q 0).val = (q ⟨0, by decide⟩).val :=
  dot_S800000x288_S288x128_S800000x128_1_0_0_1_n_n.rhsIdx_val_of_single rfl i q
theorem dotM1_rhs1 (i : S800000x128.Idx) (q : dot_S800000x288_S288x128_S800000x128_1_0_0_1_n_n.contr.Idx) :
    (dot_S800000x288_S288x128_S800000x128_1_0_0_1_n_n.rhsIdx i q 1).val = (i 1).val := by
  unfold DotDims.rhsIdx
  rw [dif_neg (show ¬(1 : Fin S288x128.rank) ∈ dot_S800000x288_S288x128_S800000x128_1_0_0_1_n_n.rhsBatch by decide), dif_pos (show (1 : Fin S288x128.rank) ∈ dot_S800000x288_S288x128_S800000x128_1_0_0_1_n_n.rhsNonContracting by decide)]
  rfl

/-- Entry `(e, o)` of the product is the sum over `k` of `Y (e, k) * W (k, o)`. -/
theorem dotM1_apply (Y : A Ideal S800000x288) (W : A Ideal S288x128) (e : Fin 800000) (o : Fin 128) :
    Host.dotGeneral (F := Ideal) (φ₁ := .f32) (φ₂ := .f32) dot_S800000x288_S288x128_S800000x128_1_0_0_1_n_n none Y W (ix2 e o) = ∑ k : Fin 288, Y (ix2 e k) * W (ix2 k o) := by
  simp only [Host.dotGeneral]
  rw [Ideal.dotGeneral_apply, ← Equiv.sum_comp (contrEquiv1 dot_S800000x288_S288x128_S800000x128_1_0_0_1_n_n 288 rfl rfl).symm]
  refine Finset.sum_congr rfl fun k _ => ?_
  have hk := contrEquiv1_symm_val dot_S800000x288_S288x128_S800000x128_1_0_0_1_n_n 288 rfl rfl k
  have el : dot_S800000x288_S288x128_S800000x128_1_0_0_1_n_n.lhsIdx (ix2 e o) ((contrEquiv1 dot_S800000x288_S288x128_S800000x128_1_0_0_1_n_n 288 rfl rfl).symm k) = ix2 e k := funext fun a => Fin.ext (by
    match a with
    | ⟨0, _⟩ => exact dotM1_lhs0 _ _
    | ⟨1, _⟩ => exact (dotM1_lhs1 _ _).trans hk)
  have er : dot_S800000x288_S288x128_S800000x128_1_0_0_1_n_n.rhsIdx (ix2 e o) ((contrEquiv1 dot_S800000x288_S288x128_S800000x128_1_0_0_1_n_n 288 rfl rfl).symm k) = ix2 k o := funext fun a => Fin.ext (by
    match a with
    | ⟨0, _⟩ => exact (dotM1_rhs0 _ _).trans hk
    | ⟨1, _⟩ => exact dotM1_rhs1 _ _)
  rw [el, er]

/-! ### The contraction `[800000,128] · [128,128]` read at an index -/

theorem dotM2_lhs0 (i : S800000x128.Idx) (q : dot_S800000x128_S128x128_S800000x128_1_0_0_1_n_n.contr.Idx) :
    (dot_S800000x128_S128x128_S800000x128_1_0_0_1_n_n.lhsIdx i q 0).val = (i 0).val := by
  unfold DotDims.lhsIdx
  rw [dif_neg (show ¬(0 : Fin S800000x128.rank) ∈ dot_S800000x128_S128x128_S800000x128_1_0_0_1_n_n.lhsBatch by decide), dif_pos (show (0 : Fin S800000x128.rank) ∈ dot_S800000x128_S128x128_S800000x128_1_0_0_1_n_n.lhsNonContracting by decide)]
  rfl
theorem dotM2_lhs1 (i : S800000x128.Idx) (q : dot_S800000x128_S128x128_S800000x128_1_0_0_1_n_n.contr.Idx) :
    (dot_S800000x128_S128x128_S800000x128_1_0_0_1_n_n.lhsIdx i q 1).val = (q ⟨0, by decide⟩).val :=
  dot_S800000x128_S128x128_S800000x128_1_0_0_1_n_n.lhsIdx_val_of_single rfl i q
theorem dotM2_rhs0 (i : S800000x128.Idx) (q : dot_S800000x128_S128x128_S800000x128_1_0_0_1_n_n.contr.Idx) :
    (dot_S800000x128_S128x128_S800000x128_1_0_0_1_n_n.rhsIdx i q 0).val = (q ⟨0, by decide⟩).val :=
  dot_S800000x128_S128x128_S800000x128_1_0_0_1_n_n.rhsIdx_val_of_single rfl i q
theorem dotM2_rhs1 (i : S800000x128.Idx) (q : dot_S800000x128_S128x128_S800000x128_1_0_0_1_n_n.contr.Idx) :
    (dot_S800000x128_S128x128_S800000x128_1_0_0_1_n_n.rhsIdx i q 1).val = (i 1).val := by
  unfold DotDims.rhsIdx
  rw [dif_neg (show ¬(1 : Fin S128x128.rank) ∈ dot_S800000x128_S128x128_S800000x128_1_0_0_1_n_n.rhsBatch by decide), dif_pos (show (1 : Fin S128x128.rank) ∈ dot_S800000x128_S128x128_S800000x128_1_0_0_1_n_n.rhsNonContracting by decide)]
  rfl

/-- Entry `(e, o)` of the product is the sum over `k` of `Y (e, k) * W (k, o)`. -/
theorem dotM2_apply (Y : A Ideal S800000x128) (W : A Ideal S128x128) (e : Fin 800000) (o : Fin 128) :
    Host.dotGeneral (F := Ideal) (φ₁ := .f32) (φ₂ := .f32) dot_S800000x128_S128x128_S800000x128_1_0_0_1_n_n none Y W (ix2 e o) = ∑ k : Fin 128, Y (ix2 e k) * W (ix2 k o) := by
  simp only [Host.dotGeneral]
  rw [Ideal.dotGeneral_apply, ← Equiv.sum_comp (contrEquiv1 dot_S800000x128_S128x128_S800000x128_1_0_0_1_n_n 128 rfl rfl).symm]
  refine Finset.sum_congr rfl fun k _ => ?_
  have hk := contrEquiv1_symm_val dot_S800000x128_S128x128_S800000x128_1_0_0_1_n_n 128 rfl rfl k
  have el : dot_S800000x128_S128x128_S800000x128_1_0_0_1_n_n.lhsIdx (ix2 e o) ((contrEquiv1 dot_S800000x128_S128x128_S800000x128_1_0_0_1_n_n 128 rfl rfl).symm k) = ix2 e k := funext fun a => Fin.ext (by
    match a with
    | ⟨0, _⟩ => exact dotM2_lhs0 _ _
    | ⟨1, _⟩ => exact (dotM2_lhs1 _ _).trans hk)
  have er : dot_S800000x128_S128x128_S800000x128_1_0_0_1_n_n.rhsIdx (ix2 e o) ((contrEquiv1 dot_S800000x128_S128x128_S800000x128_1_0_0_1_n_n 128 rfl rfl).symm k) = ix2 k o := funext fun a => Fin.ext (by
    match a with
    | ⟨0, _⟩ => exact (dotM2_rhs0 _ _).trans hk
    | ⟨1, _⟩ => exact dotM2_rhs1 _ _)
  rw [el, er]

/-- A bias vector broadcast to one row and then to every row reads, at `(e, o)`, its entry `o`. -/
theorem bias32_apply (b : A Ideal S32) (e : Fin 800000) (o : Fin 32) :
    broadcastInDim S800000x32 ![0, 1] bcast_S1x32_S800000x32_0_1 (broadcastInDim S1x32 ![1] bcast_S32_S1x32_1 b) (ix2 e o)
      = b (ix1 o) := by
  refine (broadcastInDim_apply _ bcast_S1x32_S800000x32_0_1 _ (ix2 e o) (ix2 (0 : Fin 1) o) (fun a => match a with
    | ⟨0, _⟩ => by show 0 = if (1 : Nat) = 1 then 0 else e.val; rw [if_pos rfl]
    | ⟨1, _⟩ => by show o.val = if (32 : Nat) = 1 then 0 else o.val; rw [if_neg (by decide)])).trans ?_
  exact broadcastInDim_apply _ bcast_S32_S1x32_1 b (ix2 (0 : Fin 1) o) (ix1 o) (fun a => match a with
    | ⟨0, _⟩ => by show o.val = if (32 : Nat) = 1 then 0 else o.val; rw [if_neg (by decide)])

/-- The broadcast zero constant reads `0` everywhere. -/
theorem zero32_apply (e : Fin 800000) (o : Fin 32) :
    broadcastInDim S800000x32 ![] bcast_S_S800000x32 (constant (F := Ideal) S_ .f32 0x00000000#32) (ix2 e o) = (0 : EReal) :=
  (broadcastInDim_apply _ bcast_S_S800000x32 (constant (F := Ideal) S_ .f32 0x00000000#32) (ix2 e o) (fun a => a.elim0)
    (fun a => a.elim0)).trans Ideal.ofBits_zero_f32

/-- A bias vector broadcast to one row and then to every row reads, at `(e, o)`, its entry `o`. -/
theorem bias128_apply (b : A Ideal S128) (e : Fin 800000) (o : Fin 128) :
    broadcastInDim S800000x128 ![0, 1] bcast_S1x128_S800000x128_0_1 (broadcastInDim S1x128 ![1] bcast_S128_S1x128_1 b) (ix2 e o)
      = b (ix1 o) := by
  refine (broadcastInDim_apply _ bcast_S1x128_S800000x128_0_1 _ (ix2 e o) (ix2 (0 : Fin 1) o) (fun a => match a with
    | ⟨0, _⟩ => by show 0 = if (1 : Nat) = 1 then 0 else e.val; rw [if_pos rfl]
    | ⟨1, _⟩ => by show o.val = if (128 : Nat) = 1 then 0 else o.val; rw [if_neg (by decide)])).trans ?_
  exact broadcastInDim_apply _ bcast_S128_S1x128_1 b (ix2 (0 : Fin 1) o) (ix1 o) (fun a => match a with
    | ⟨0, _⟩ => by show o.val = if (128 : Nat) = 1 then 0 else o.val; rw [if_neg (by decide)])

/-- The broadcast zero constant reads `0` everywhere. -/
theorem zero128_apply (e : Fin 800000) (o : Fin 128) :
    broadcastInDim S800000x128 ![] bcast_S_S800000x128 (constant (F := Ideal) S_ .f32 0x00000000#32) (ix2 e o) = (0 : EReal) :=
  (broadcastInDim_apply _ bcast_S_S800000x128 (constant (F := Ideal) S_ .f32 0x00000000#32) (ix2 e o) (fun a => a.elim0)
    (fun a => a.elim0)).trans Ideal.ofBits_zero_f32

/-! ### The position perceptron at an index -/

/-- The position perceptron at `(e, o)` is the two-layer perceptron on row `e` of `PD`. -/
theorem posChain_apply (PD : A Ideal S800000x3) (pw1 : A Ideal S3x32) (pb1 : A Ideal S32) (pw2 : A Ideal S32x32)
    (pb2 : A Ideal S32) (e : Fin 800000) (o : Fin 32) :
    posChain PD pw1 pb1 pw2 pb2 (ix2 e o) = mlp (row PD e) (mat pw1) (vec pb1) (mat pw2) (vec pb2) o := by
  unfold posChain
  rw [addf_apply, dotP2_apply, bias32_apply]
  show _ = (∑ k : Fin 32, max (dense (row PD e) (mat pw1) (vec pb1) k) 0 * mat pw2 k o) + vec pb2 o
  refine congrArg (· + pb2 (ix1 o)) (Finset.sum_congr rfl fun k _ => ?_)
  rw [maximumf_apply, addf_apply, dotP1_apply, bias32_apply, zero32_apply]
  rfl

/-! ### The message perceptron at an index -/

/-- The message perceptron at `(e, o)` is the two-layer perceptron on the concatenated row `[XR e | XC e | PF e]`. -/
theorem msgChain_apply (XR XC : A Ideal S800000x128) (PF : A Ideal S800000x32) (mw1 : A Ideal S288x128) (mb1 : A Ideal S128)
    (mw2 : A Ideal S128x128) (mb2 : A Ideal S128) (e : Fin 800000) (o : Fin 128) :
    msgChain XR XC PF mw1 mb1 mw2 mb2 (ix2 e o)
      = mlp (K := 288) (cat3 (K₁ := 128) (K₂ := 128) (K₃ := 32) (row XR e) (row XC e) (row PF e)) (mat mw1) (vec mb1) (mat mw2) (vec mb2) o := by
  unfold msgChain
  rw [addf_apply, dotM2_apply, bias128_apply]
  show _ = (∑ k : Fin 128, max (dense (K := 288) (cat3 (K₁ := 128) (K₂ := 128) (K₃ := 32) (row XR e) (row XC e) (row PF e)) (mat mw1) (vec mb1) k) 0 * mat mw2 k o) + vec mb2 o
  refine congrArg (· + mb2 (ix1 o)) (Finset.sum_congr rfl fun k _ => ?_)
  rw [maximumf_apply, addf_apply, dotM1_apply, bias128_apply, zero128_apply]
  show max ((∑ j : Fin 288, _) + _) 0 * _ = max ((∑ j : Fin 288, cat3 (K₁ := 128) (K₂ := 128) (K₃ := 32) (row XR e) (row XC e) (row PF e) j * mat mw1 j k) + vec mb1 k) 0 * mat mw2 k o
  refine congrArg (fun s => max (s + mb1 (ix1 k)) 0 * mw2 (ix2 k o)) (Finset.sum_congr rfl fun j _ => ?_)
  rw [cat_apply]
  rfl

/-- The reference's message stage — the message perceptron on the concatenation whose third block is the position
    perceptron's output — is, entry by entry, the perceptron on the concatenated row. -/
theorem msgChain_eq (XR XC : A Ideal S800000x128) (PD : A Ideal S800000x3) (pw1 : A Ideal S3x32) (pb1 : A Ideal S32)
    (pw2 : A Ideal S32x32) (pb2 : A Ideal S32) (mw1 : A Ideal S288x128) (mb1 : A Ideal S128) (mw2 : A Ideal S128x128)
    (mb2 : A Ideal S128) :
    msgChain XR XC (posChain PD pw1 pb1 pw2 pb2) mw1 mb1 mw2 mb2 = Cert.Spec.MsgR XR XC PD pw1 pb1 pw2 pb2 mw1 mb1 mw2 mb2 := by
  funext i
  obtain ⟨e, o, rfl⟩ : ∃ (e : Fin 800000) (o : Fin 128), i = ix2 e o := ⟨i 0, i 1, eq_ix2 i⟩
  rw [msgChain_apply]
  have hP : row (posChain PD pw1 pb1 pw2 pb2) e = mlp (row PD e) (mat pw1) (vec pb1) (mat pw2) (vec pb2) :=
    funext fun k => posChain_apply PD pw1 pb1 pw2 pb2 e k
  rw [hP]
  rfl

end Cert.ReferenceIdeal.RefMsg

end
-- ==== Proof.RefUpd.lean ====
/-
  The reference's update stage read at an index: the node's own row and its aggregated row laid end to end, a dense
  layer, the rectifier, a second dense layer.
-/
import proofs.«162276_j49495203119136_1_alg».proof.Proof.RefChain
import proofs.«162276_j49495203119136_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefUpd

open Cert.ReferenceIdeal Cert.ReferenceIdeal.RefChain Cert.ReferenceIdeal.Facts₀ Idealize.ShloMosaic Idealize.ShloMosaic.TcCoe
  Idealize.SL.Sem Idealize.ShloMosaic.ValueIdx

/-- The concatenation along axis 1 at `(e, k)`: the node's row followed by its aggregated row, at position `k`. An
    element with joined-axis coordinate below 128 comes from the first array, any other from the second at `k - 128`. -/
theorem cat_apply (X AGG : A Ideal S50000x128) (e : Fin 50000) (k : Fin 256) :
    concatenate S50000x256 1 [⟨S50000x128, X⟩, ⟨S50000x128, AGG⟩] concatenates_S50000x128_S50000x128_S50000x256_d1 (ix2 e k)
      = Cert.Spec.cat2 (K₁ := 128) (K₂ := 128) (Cert.Spec.row X e) (Cert.Spec.row AGG e) k := by
  by_cases hk : k.val < 128
  · rw [concatenate_pair_apply_left (1 : Fin S50000x256.rank) X AGG concatenates_S50000x128_S50000x128_S50000x256_d1
      (ix2 e k) rfl (ix2 e ⟨k.val, hk⟩) (fun b => match b with | ⟨0, _⟩ => rfl | ⟨1, _⟩ => rfl)]
    simp only [Cert.Spec.cat2, Cert.Spec.row, hk, dite_true]
  · have hk' : k.val - 128 < 128 := by have := k.isLt; omega
    rw [concatenate_pair_apply_right (1 : Fin S50000x256.rank) X AGG concatenates_S50000x128_S50000x128_S50000x256_d1
      (ix2 e k) rfl rfl (ix2 e ⟨k.val - 128, hk'⟩)
      (fun b => match b with | ⟨0, _⟩ => fun _ => rfl | ⟨1, _⟩ => fun hne => absurd rfl hne)
      (by show k.val - 128 + 128 = k.val; omega)]
    simp only [Cert.Spec.cat2, Cert.Spec.row, hk, dite_false]

/-- A bias vector broadcast to one row and then to every row, at `(e, o)`: entry `o` of the vector. -/
theorem bias_apply (b : A Ideal S128) (e : Fin 50000) (o : Fin 128) :
    broadcastInDim S50000x128 ![0, 1] bcast_S1x128_S50000x128_0_1 (broadcastInDim S1x128 ![1] bcast_S128_S1x128_1 b) (ix2 e o)
      = Cert.Spec.vec b o := by
  rw [broadcastInDim_apply _ bcast_S1x128_S50000x128_0_1 (broadcastInDim S1x128 ![1] bcast_S128_S1x128_1 b) (ix2 e o)
    (ix2 (0 : Fin 1) o) (fun a => match a with
      | ⟨0, _⟩ => by show 0 = if (1 : Nat) = 1 then 0 else e.val; rw [if_pos rfl]
      | ⟨1, _⟩ => by show o.val = if (128 : Nat) = 1 then 0 else o.val; rw [if_neg (by decide)])]
  rw [broadcastInDim_apply _ bcast_S128_S1x128_1 b (ix2 (0 : Fin 1) o) (ix1 o) (fun a => match a with
      | ⟨0, _⟩ => by show o.val = if (128 : Nat) = 1 then 0 else o.val; rw [if_neg (by decide)])]
  rfl

/-- The broadcast zero constant at any index is the extended real `0`. -/
theorem zero_apply (e : Fin 50000) (o : Fin 128) :
    broadcastInDim S50000x128 ![] bcast_S_S50000x128 (constant (F := Ideal) S_ .f32 0x00000000#32) (ix2 e o) = 0 := by
  rw [broadcastInDim_apply _ bcast_S_S50000x128 (constant (F := Ideal) S_ .f32 0x00000000#32) (ix2 e o) ix0 (fun a => a.elim0),
    constant_apply, Ideal.ofBits_zero_f32]

/-- In the first layer's product the left operand's axis 0 is the result's row axis … -/
theorem lhs1_0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide),
    dif_pos (show (0 : Fin S50000x256.rank) ∈ dot_S50000x256_S256x128_S50000x128_1_0_0_1_n_n.lhsNonContracting by decide)]
  rfl
/-- … its axis 1 is the contracted one … -/
theorem lhs1_1 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q
/-- … the right operand's axis 0 is the contracted one … -/
theorem rhs1_0 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q
/-- … and its axis 1 is the result's column axis. -/
theorem rhs1_1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide),
    dif_pos (show (1 : Fin S256x128.rank) ∈ dot_S50000x256_S256x128_S50000x128_1_0_0_1_n_n.rhsNonContracting by decide)]
  rfl

/-- The first layer's product at `(e, o)`: row `e` of the left operand against column `o` of the right, the one-axis
    contraction re-indexed by its coordinate. -/
theorem dot1_apply (Y : A Ideal S50000x256) (W : A Ideal S256x128) (e : Fin 50000) (o : Fin 128) :
    Host.dotGeneral (F := Ideal) (φ₁ := .f32) (φ₂ := .f32) dot_S50000x256_S256x128_S50000x128_1_0_0_1_n_n none Y W (ix2 e o) = ∑ k : Fin 256, Y (ix2 e k) * W (ix2 k o) := by
  simp only [Host.dotGeneral]
  rw [Ideal.dotGeneral_apply, ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx (ix2 e o) ((contrEquiv1 dot_S50000x256_S256x128_S50000x128_1_0_0_1_n_n 256 rfl rfl).symm k) = ix2 e k :=
    funext fun a => Fin.ext (by
      match a with
      | ⟨0, _⟩ => exact lhs1_0 _ _
      | ⟨1, _⟩ => exact (lhs1_1 _ _).trans hk)
  have er : dot_S50000x256_S256x128_S50000x128_1_0_0_1_n_n.rhsIdx (ix2 e o) ((contrEquiv1 dot_S50000x256_S256x128_S50000x128_1_0_0_1_n_n 256 rfl rfl).symm k) = ix2 k o :=
    funext fun a => Fin.ext (by
      match a with
      | ⟨0, _⟩ => exact (rhs1_0 _ _).trans hk
      | ⟨1, _⟩ => exact rhs1_1 _ _)
  rw [el, er]

/-- In the second layer's product the left operand's axis 0 is the result's row axis … -/
theorem lhs2_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
/-- … its axis 1 is the contracted one … -/
theorem lhs2_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
/-- … the right operand's axis 0 is the contracted one … -/
theorem rhs2_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
/-- … and its axis 1 is the result's column axis. -/
theorem rhs2_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The second layer's product at `(e, o)`: row `e` of the left operand against column `o` of the right, the one-axis
    contraction re-indexed by its coordinate. -/
theorem dot2_apply (Y : A Ideal S50000x128) (W : A Ideal S128x128) (e : Fin 50000) (o : Fin 128) :
    Host.dotGeneral (F := Ideal) (φ₁ := .f32) (φ₂ := .f32) dot_S50000x128_S128x128_S50000x128_1_0_0_1_n_n none Y W (ix2 e o) = ∑ k : Fin 128, Y (ix2 e k) * W (ix2 k o) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 e o) ((contrEquiv1 dot_S50000x128_S128x128_S50000x128_1_0_0_1_n_n 128 rfl rfl).symm k) = ix2 e k :=
    funext fun a => Fin.ext (by
      match a with
      | ⟨0, _⟩ => exact lhs2_0 _ _
      | ⟨1, _⟩ => exact (lhs2_1 _ _).trans hk)
  have er : dot_S50000x128_S128x128_S50000x128_1_0_0_1_n_n.rhsIdx (ix2 e o) ((contrEquiv1 dot_S50000x128_S128x128_S50000x128_1_0_0_1_n_n 128 rfl rfl).symm k) = ix2 k o :=
    funext fun a => Fin.ext (by
      match a with
      | ⟨0, _⟩ => exact (rhs2_0 _ _).trans hk
      | ⟨1, _⟩ => exact rhs2_1 _ _)
  rw [el, er]

/-- The hidden layer at `(e, h)`: the rectified first dense layer on the node's concatenated row. -/
theorem hidden_apply (X AGG : A Ideal S50000x128) (uw1 : A Ideal S256x128) (ub1 : A Ideal S128) (e : Fin 50000) (h : Fin 128) :
    maximumf (addf (Host.dotGeneral (F := Ideal) (φ₁ := .f32) (φ₂ := .f32) dot_S50000x256_S256x128_S50000x128_1_0_0_1_n_n none
        (concatenate S50000x256 1 [⟨S50000x128, X⟩, ⟨S50000x128, AGG⟩] concatenates_S50000x128_S50000x128_S50000x256_d1) uw1)
        (broadcastInDim S50000x128 ![0, 1] bcast_S1x128_S50000x128_0_1 (broadcastInDim S1x128 ![1] bcast_S128_S1x128_1 ub1)))
      (broadcastInDim S50000x128 ![] bcast_S_S50000x128 (constant (F := Ideal) S_ .f32 0x00000000#32)) (ix2 e h)
      = max (Cert.Spec.dense (K := 256) (Cert.Spec.cat2 (K₁ := 128) (K₂ := 128) (Cert.Spec.row X e) (Cert.Spec.row AGG e))
          (Cert.Spec.mat uw1) (Cert.Spec.vec ub1) h) 0 := by
  rw [maximumf_apply, addf_apply, dot1_apply, bias_apply, zero_apply]
  unfold Cert.Spec.dense
  congr 2
  refine Finset.sum_congr rfl fun k _ => ?_
  rw [cat_apply]
  rfl

/-- The update stage at `(e, o)`: the two-layer perceptron on the node's concatenated row. -/
theorem updChain_apply (X AGG : A Ideal S50000x128) (uw1 : A Ideal S256x128) (ub1 : A Ideal S128) (uw2 : A Ideal S128x128)
    (ub2 : A Ideal S128) (e : Fin 50000) (o : Fin 128) :
    updChain X AGG uw1 ub1 uw2 ub2 (ix2 e o)
      = Cert.Spec.mlp (K := 256) (Cert.Spec.cat2 (K₁ := 128) (K₂ := 128) (Cert.Spec.row X e) (Cert.Spec.row AGG e))
          (Cert.Spec.mat uw1) (Cert.Spec.vec ub1) (Cert.Spec.mat uw2) (Cert.Spec.vec ub2) o := by
  unfold updChain
  rw [addf_apply, dot2_apply, bias_apply]
  unfold Cert.Spec.mlp Cert.Spec.dense
  congr 1
  refine Finset.sum_congr rfl fun h _ => ?_
  rw [hidden_apply]
  rfl

/-- The reference's update stage is the update perceptron on every node's concatenated row. -/
theorem updChain_eq (X AGG : A Ideal S50000x128) (uw1 : A Ideal S256x128) (ub1 : A Ideal S128) (uw2 : A Ideal S128x128)
    (ub2 : A Ideal S128) :
    updChain X AGG uw1 ub1 uw2 ub2 = Cert.Spec.UpdR X AGG uw1 ub1 uw2 ub2 := by
  funext i
  obtain ⟨e, o, rfl⟩ : ∃ (e : Fin 50000) (o : Fin 128), i = ix2 e o := ⟨i 0, i 1, eq_ix2 i⟩
  exact updChain_apply X AGG uw1 ub1 uw2 ub2 e o

end Cert.ReferenceIdeal.RefUpd

end
-- ==== Proof.RefRes.lean ====
/-
  The reference's result as one function of the argument arrays: its printed term is the three dense stages
  composed with the shared host steps, and each dense stage is the row-wise perceptron of the specification.
-/
import proofs.«162276_j49495203119136_1_alg».proof.Proof.Gen.ReferenceIdeal.Run
import proofs.«162276_j49495203119136_1_alg».proof.Proof.HostFnsR
import proofs.«162276_j49495203119136_1_alg».proof.Proof.RefChain
import proofs.«162276_j49495203119136_1_alg».proof.Proof.RefMsg
import proofs.«162276_j49495203119136_1_alg».proof.Proof.RefUpd

noncomputable section

namespace Cert.ReferenceIdeal.RefRes

open Cert.ReferenceIdeal Cert.ReferenceIdeal.Facts₀ Cert.ReferenceIdeal.HostFns Cert.ReferenceIdeal.RefChain
open Idealize.ShloMosaic Idealize.ShloMosaic.TcCoe Idealize.SL.Sem

variable (m : (ℓ : Loc nD τ sig) → Buf (Elt Ideal) ℓ)

/-- The reference's result as one function of the argument arrays. -/
abbrev Final (c : Dev nD) : (⟨S50000x128, .f32⟩ : BufTy).Contents (Elt Ideal) :=
  Cert.Spec.UpdR (m ((c.tc : Thread nD τ).loc main_arg0)) (Cert.ReferenceIdeal.HostFns.agg (m ((c.tc : Thread nD τ).loc main_arg2)) (Cert.Spec.MsgR (Cert.ReferenceIdeal.HostFns.gatherX (m ((c.tc : Thread nD τ).loc main_arg0)) (Cert.ReferenceIdeal.HostFns.rowIx (m ((c.tc : Thread nD τ).loc main_arg2)))) (Cert.ReferenceIdeal.HostFns.gatherX (m ((c.tc : Thread nD τ).loc main_arg0)) (Cert.ReferenceIdeal.HostFns.colIx (m ((c.tc : Thread nD τ).loc main_arg2)))) (Cert.ReferenceIdeal.HostFns.posDiff (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))) (m ((c.tc : Thread nD τ).loc main_arg11)) (m ((c.tc : Thread nD τ).loc main_arg12)) (m ((c.tc : Thread nD τ).loc main_arg13)) (m ((c.tc : Thread nD τ).loc main_arg14))

set_option maxRecDepth 8192 in
/-- The printed result term is the composition of the named stages. -/
theorem res_chain (c : Dev nD) : Cert.ReferenceIdeal.Value.res_main_v64 (F := Ideal) m c
    = updChain (m ((c.tc : Thread nD τ).loc main_arg0)) (agg (m ((c.tc : Thread nD τ).loc main_arg2)) (msgChain (gatherX (m ((c.tc : Thread nD τ).loc main_arg0)) (rowIx (m ((c.tc : Thread nD τ).loc main_arg2)))) (gatherX (m ((c.tc : Thread nD τ).loc main_arg0)) (colIx (m ((c.tc : Thread nD τ).loc main_arg2)))) (posChain (posDiff (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10)))) (m ((c.tc : Thread nD τ).loc main_arg11)) (m ((c.tc : Thread nD τ).loc main_arg12)) (m ((c.tc : Thread nD τ).loc main_arg13)) (m ((c.tc : Thread nD τ).loc main_arg14)) := by
  unfold Cert.ReferenceIdeal.Value.res_main_v64 updChain msgChain posChain agg gatherX posDiff gatherP rowIx colIx wrap asCol
  rfl

/-- The reference's result buffer after the run is `Final` of the arguments. -/
theorem res_eq (c : Dev nD) : Cert.ReferenceIdeal.Value.res_main_v64 (F := Ideal) m c = Final m c := by
  rw [res_chain m c, RefUpd.updChain_eq, RefMsg.msgChain_eq]

end Cert.ReferenceIdeal.RefRes

end
-- ==== Proof.HostFnsEq.lean ====
/-
  The two programs' shared host steps are the same functions: the two printed programs spell the same
  operations over the same shapes, so each pair of definitions agrees by unfolding.
-/
import proofs.«162276_j49495203119136_1_alg».proof.Proof.HostFnsK
import proofs.«162276_j49495203119136_1_alg».proof.Proof.HostFnsR

noncomputable section

namespace Cert.HostFnsEq

open Idealize.ShloMosaic Idealize.ShloMosaic.TcCoe

theorem rowIx_eq : @Cert.ReferenceIdeal.HostFns.rowIx = @Cert.KernelIdeal.HostFns.rowIx := rfl
theorem colIx_eq : @Cert.ReferenceIdeal.HostFns.colIx = @Cert.KernelIdeal.HostFns.colIx := rfl
theorem gatherX_eq : @Cert.ReferenceIdeal.HostFns.gatherX = @Cert.KernelIdeal.HostFns.gatherX := rfl
theorem posDiff_eq : @Cert.ReferenceIdeal.HostFns.posDiff = @Cert.KernelIdeal.HostFns.posDiff := rfl
theorem agg_eq : @Cert.ReferenceIdeal.HostFns.agg = @Cert.KernelIdeal.HostFns.agg := rfl

end Cert.HostFnsEq

end
-- ==== Proof.lean ====
/-
  The kernel and the reference compute the same node update of a message-passing layer, on the extended reals.

  Per edge (source r, destination c): position features `pf = relu((pos[r] - pos[c]) · pw1 + pb1) · pw2 + pb2`, then the
  message `relu([x[r] | x[c] | pf] · mw1 + mb1) · mw2 + mb2`; the messages are summed into their destination nodes; per
  node the update `relu([x | agg] · uw1 + ub1) · uw2 + ub2`.  The reference multiplies each concatenated row by the whole
  weight matrix.  The kernel runs the two perceptrons block by block over the edges (250 blocks of 3200) and over the
  nodes (10 blocks of 5000) and, instead of concatenating, adds the partial products of each part of the row with the
  matching rows of the weight matrix; its biases arrive as one-row matrices and its weight blocks as row slices.
  A sum over `128 + 128 + 32` (or `128 + 128`) indices is the sum of the sums over the consecutive stretches, in any
  commutative additive monoid, so the two first layers agree entry by entry with no finiteness assumption; every other
  step (gather, subtraction, rectifier, second layer, scatter-add) is the same operation on both sides, and the
  kernel's changes of float format are the identity on the extended reals.

  The three frames: the kernel's two (word level and idealized) are the generated launch over @main's four segments;
  the reference's is its generated run with the result dropped.  The idealization rewrote nothing.
-/
import proofs.«162276_j49495203119136_1_alg».proof.Defs
import proofs.«162276_j49495203119136_1_alg».proof.Proof.Gen.Kernel
import proofs.«162276_j49495203119136_1_alg».proof.Proof.Gen.Kernel.Skeleton
import proofs.«162276_j49495203119136_1_alg».proof.Proof.Gen.Kernel.Launch
import proofs.«162276_j49495203119136_1_alg».proof.Proof.Gen.Kernel.Points
import proofs.«162276_j49495203119136_1_alg».proof.Proof.Gen.Kernel.Frame
import proofs.«162276_j49495203119136_1_alg».proof.Proof.Gen.KernelIdeal
import proofs.«162276_j49495203119136_1_alg».proof.Proof.Gen.KernelIdeal.Skeleton
import proofs.«162276_j49495203119136_1_alg».proof.Proof.Gen.KernelIdeal.Launch
import proofs.«162276_j49495203119136_1_alg».proof.Proof.Gen.KernelIdeal.Points
import proofs.«162276_j49495203119136_1_alg».proof.Proof.Gen.KernelIdeal.Frame
import proofs.«162276_j49495203119136_1_alg».proof.Proof.Gen.ReferenceIdeal
import proofs.«162276_j49495203119136_1_alg».proof.Proof.Gen.Pre_finite_inputs
import proofs.«162276_j49495203119136_1_alg».proof.Proof.Gen.ReferenceIdeal.Run
import proofs.«162276_j49495203119136_1_alg».proof.Proof.Gen.ReferenceIdeal.Read
import proofs.«162276_j49495203119136_1_alg».proof.Proof.KernelRun
import proofs.«162276_j49495203119136_1_alg».proof.Proof.KernelValue
import proofs.«162276_j49495203119136_1_alg».proof.Proof.RefRes
import proofs.«162276_j49495203119136_1_alg».proof.Proof.HostFnsEq
import Idealize.ShloMosaic.Adequacy
import Idealize.ShloMosaic.Init

noncomputable section

namespace Cert.Proof

open Idealize.ShloMosaic Idealize.SL.Sem

/-- The reference's closed form of the result is the kernel's, read at arguments that agree: the shared host steps
    are the same functions in the two programs. -/
theorem final_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.RefRes.Final m' c = Cert.KernelIdeal.KVal.Final m c := by
  obtain ⟨h0, h1, h2, h3, h4, h5, h6, h7, h8, h9, h10, h11, h12, h13, h14⟩ := h
  unfold Cert.ReferenceIdeal.RefRes.Final Cert.KernelIdeal.KVal.Final
  rw [h0, h1, h2, h3, h4, h5, h6, h7, h8, h9, h10, h11, h12, h13, h14,
    Cert.HostFnsEq.rowIx_eq, Cert.HostFnsEq.colIx_eq, Cert.HostFnsEq.gatherX_eq, Cert.HostFnsEq.posDiff_eq, Cert.HostFnsEq.agg_eq]

/-- Both idealized programs end with the result buffer at the same function of the arguments. -/
theorem algebraic : Cert.algebraic_KernelIdeal_ReferenceIdeal := by
  intro m ρ m' ρ' _ hagree
  refine ⟨fun c => Cert.KernelIdeal.KVal.Final m c, ?_, ?_⟩
  · exact (θ_run Cert.KernelIdeal.defs _ _).mono
      (fun r h c => ⟨(h c).1.trans (Cert.KernelIdeal.KVal.result_eq m ρ c), (h c).2⟩)
      (Cert.KernelIdeal.Run.run_named (F := Ideal) m ρ)
  · exact (θ_run Cert.ReferenceIdeal.defs _ _).mono
      (fun r h c => ⟨(h c).1.trans ((Cert.ReferenceIdeal.RefRes.res_eq m' c).trans (final_eq m m' c (hagree c))), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
